-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x2048 : Shape := ⟨2, ![4096, 2048]⟩
abbrev S4096x128 : Shape := ⟨2, ![4096, 128]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S8192x4096 .f32) (main_arg1 : IVec S4096x2048 32) (main_arg2 : IVec S4096x128 32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg3
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_c_2 : IVec S_ 32 := constantI S_ 32 0#32
  let main_v9 : IVec S4096x128 32 := broadcastInDim S4096x128 ![] bcast_S_S4096x128 main_c_2
  let main_v10 : IVec S4096x128 1 := cmpi .sge main_arg2 main_v9
  let main_c_3 : IVec S_ 32 := constantI S_ 32 255#32
  let main_v11 : IVec S4096x128 32 := broadcastInDim S4096x128 ![] bcast_S_S4096x128 main_c_3
  let main_v12 : IVec S4096x128 1 := cmpi .sle main_arg2 main_v11
  let main_v13 : IVec S4096x128 1 := andi main_v10 main_v12
  let main_c_4 : IVec S_ 1 := constantI S_ 1 1#1
  let main_v14 : IVec S_ 1 := (fun x v => Host.reduce IntOp.andi x v reducesTo_S4096x128_S_d0_1 h_S_) main_v13 main_c_4
  let main_v15 : IVec S_ 1 := andi main_v8 main_v14
  main_v15
-- ==== Kernel.lean ====
abbrev S8192x4096 : Shape := ⟨2, ![8192, 4096]⟩
abbrev S4096x2048 : Shape := ⟨2, ![4096, 2048]⟩
abbrev S4096x128 : Shape := ⟨2, ![4096, 128]⟩
abbrev S4096 : Shape := ⟨1, ![4096]⟩
abbrev S_ : Shape := ⟨0, ![]⟩
abbrev S4096x128x16 : Shape := ⟨3, ![4096, 128, 16]⟩
abbrev S512x2048 : Shape := ⟨2, ![512, 2048]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S1024x2048 : Shape := ⟨2, ![1024, 2048]⟩
abbrev S1024 : Shape := ⟨1, ![1024]⟩
abbrev S1024x1024 : Shape := ⟨2, ![1024, 1024]⟩
abbrev S1x1024 : Shape := ⟨2, ![1, 1024]⟩

abbrev nBuf : Space → Nat
  | .hbm => 21
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096x2048, .i32⟩
  | .hbm, ⟨2, _⟩ => ⟨S4096x128, .i32⟩
  | .hbm, ⟨3, _⟩ => ⟨S4096, .f32⟩
  | .hbm, ⟨4, _⟩ => ⟨S4096x128, .f32⟩
  | .hbm, ⟨5, _⟩ => ⟨S_, .f32⟩
  | .hbm, ⟨6, _⟩ => ⟨S4096x128, .f32⟩
  | .hbm, ⟨7, _⟩ => ⟨S4096x128, .f32⟩
  | .hbm, ⟨8, _⟩ => ⟨S_, .f32⟩
  | .hbm, ⟨9, _⟩ => ⟨S4096x128, .f32⟩
  | .hbm, ⟨10, _⟩ => ⟨S4096x128, .f32⟩
  | .hbm, ⟨11, _⟩ => ⟨S4096x128, .f32⟩
  | .hbm, ⟨12, _⟩ => ⟨S4096x128x16, .f32⟩
  | .hbm, ⟨13, _⟩ => ⟨S4096x2048, .f32⟩
  | .hbm, ⟨14, _⟩ => ⟨S4096x2048, .bf16⟩
  | .hbm, ⟨15, _⟩ => ⟨S4096x2048, .bf16⟩
  | .hbm, ⟨16, _⟩ => ⟨S4096x2048x1, .bf16⟩
  | .hbm, ⟨17, _⟩ => ⟨S4096x2048x1, .bf16⟩
  | .hbm, ⟨18, _⟩ => ⟨S4096x2048x2, .bf16⟩
  | .hbm, ⟨19, _⟩ => ⟨S4096x4096, .bf16⟩
  | .hbm, ⟨20, _⟩ => ⟨S8192x4096, .f32⟩
  | .local _ .vmem, ⟨0, _⟩ => ⟨S512x2048, .i32⟩
  | .local _ .vmem, ⟨1, _⟩ => ⟨S512x2048, .i32⟩
  | .local _ .vmem, ⟨2, _⟩ => ⟨S512x2048, .f32⟩
  | .local _ .vmem, ⟨3, _⟩ => ⟨S512x2048, .f32⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | .local _ .vmem, ⟨11, _⟩ => ⟨S1024x2048, .bf16⟩
  | .local _ .vmem, ⟨12, _⟩ => ⟨S1024, .f32⟩
  | .local _ .vmem, ⟨13, _⟩ => ⟨S1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 4, 2], ![false, false, false]⟩

def k1_cond2 (i : grid1.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bcast_S_S4096x128 : S_.BroadcastsInDim S4096x128 (![] : Fin 0 → Fin S4096x128.rank)
  bcast_S4096x128_S4096x128x16_0_1 : S4096x128.BroadcastsInDim S4096x128x16 (![0, 1] : Fin 2 → Fin S4096x128x16.rank)
  shapeCasts_S4096x128x16_S4096x2048 : S4096x128x16.ShapeCasts S4096x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .i32 = 32 ∨ (Rect.block (s := S4096x2048) S512x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x2048.size a
  hwx0_2 : ∀ i : grid0.Coords, EltTy.bits .bf16 = 32 ∨ (Rect.block (s := S4096x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .bf16 = 32 ∨ (Rect.block (s := S4096x2048) S512x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x4096.size a
  hwx1_0 : ∀ i : grid1.Coords, EltTy.bits .f32 = 32 ∨ (Rect.block (s := S8192x4096) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x4096.size a
  hwx1_1 : ∀ i : grid1.Coords, EltTy.bits .bf16 = 32 ∨ (Rect.block (s := S4096x4096) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S4096.size a
  hwx1_2 : ∀ i : grid1.Coords, EltTy.bits .f32 = 32 ∨ (Rect.block (s := S4096) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8_0) S512x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_1) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x2048 : Shape := ⟨2, ![4096, 2048]⟩
abbrev S4096x128 : Shape := ⟨2, ![4096, 128]⟩
abbrev S4096 : Shape := ⟨1, ![4096]⟩
abbrev S16 : Shape := ⟨1, ![16]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S4096x4096x1 : Shape := ⟨3, ![4096, 4096, 1]⟩
abbrev S4096x128x32 : Shape := ⟨3, ![4096, 128, 32]⟩
abbrev S4096x128x1 : Shape := ⟨3, ![4096, 128, 1]⟩
abbrev S1x4096 : Shape := ⟨2, ![1, 4096]⟩

abbrev nBuf : Space → Nat
  | .hbm => 44
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .i32⟩
  | .hbm, ⟨2, _⟩ => ⟨S4096x128, .i32⟩
  | .hbm, ⟨3, _⟩ => ⟨S4096, .f32⟩
  | .hbm, ⟨4, _⟩ => ⟨S16, .f32⟩
  | .hbm, ⟨5, _⟩ => ⟨S_, .i32⟩
  | .hbm, ⟨6, _⟩ => ⟨S4096x2048, .i32⟩
  | .hbm, ⟨7, _⟩ => ⟨S4096x2048, .i32⟩
  | .hbm, ⟨8, _⟩ => ⟨S_, .i32⟩
  | .hbm, ⟨9, _⟩ => ⟨S4096x2048, .i32⟩
  | .hbm, ⟨10, _⟩ => ⟨S4096x2048, .i32⟩
  | .hbm, ⟨11, _⟩ => ⟨S_, .i32⟩
  | .hbm, ⟨12, _⟩ => ⟨S4096x2048, .i32⟩
  | .hbm, ⟨13, _⟩ => ⟨S4096x2048, .i32⟩
  | .hbm, ⟨14, _⟩ => ⟨S4096x2048x1, .i32⟩
  | .hbm, ⟨15, _⟩ => ⟨S4096x2048x1, .i32⟩
  | .hbm, ⟨16, _⟩ => ⟨S4096x2048x2, .i32⟩
  | .hbm, ⟨17, _⟩ => ⟨S4096x4096, .i32⟩
  | .hbm, ⟨18, _⟩ => ⟨S_, .i32⟩
  | .hbm, ⟨19, _⟩ => ⟨S4096x4096, .i32⟩
  | .hbm, ⟨20, _⟩ => ⟨S4096x4096, .i1⟩
  | .hbm, ⟨21, _⟩ => ⟨S_, .i32⟩
  | .hbm, ⟨22, _⟩ => ⟨S4096x4096, .i32⟩
  | .hbm, ⟨23, _⟩ => ⟨S4096x4096, .i32⟩
  | .hbm, ⟨24, _⟩ => ⟨S4096x4096, .i32⟩
  | .hbm, ⟨25, _⟩ => ⟨S4096x4096x1, .i32⟩
  | .hbm, ⟨26, _⟩ => ⟨S4096x4096, .f32⟩
  | .hbm, ⟨27, _⟩ => ⟨S_, .i32⟩
  | .hbm, ⟨28, _⟩ => ⟨S4096x128, .i32⟩
  | .hbm, ⟨29, _⟩ => ⟨S4096x128, .i32⟩
  | .hbm, ⟨30, _⟩ => ⟨S4096x128, .f32⟩
  | .hbm, ⟨31, _⟩ => ⟨S_, .f32⟩
  | .hbm, ⟨32, _⟩ => ⟨S4096x128, .f32⟩
  | .hbm, ⟨33, _⟩ => ⟨S4096x128, .f32⟩
  | .hbm, ⟨34, _⟩ => ⟨S4096x128, .f32⟩
  | .hbm, ⟨35, _⟩ => ⟨S4096x128x32, .f32⟩
  | .hbm, ⟨36, _⟩ => ⟨S4096x128x1, .f32⟩
  | .hbm, ⟨37, _⟩ => ⟨S4096x128x32, .f32⟩
  | .hbm, ⟨38, _⟩ => ⟨S4096x128x32, .f32⟩
  | .hbm, ⟨39, _⟩ => ⟨S4096x4096, .f32⟩
  | .hbm, ⟨40, _⟩ => ⟨S8192x4096, .f32⟩
  | .hbm, ⟨41, _⟩ => ⟨S1x4096, .f32⟩
  | .hbm, ⟨42, _⟩ => ⟨S8192x4096, .f32⟩
  | .hbm, ⟨43, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S_S4096x128 : S_.BroadcastsInDim S4096x128 (![] : Fin 0 → Fin S4096x128.rank)
  shapeCasts_S4096x4096_S4096x128x32 : S4096x4096.ShapeCasts S4096x128x32
  bcast_S4096x128_S4096x128x1_0_1 : S4096x128.BroadcastsInDim S4096x128x1 (![0, 1] : Fin 2 → Fin S4096x128x1.rank)
  bcast_S4096x128x1_S4096x128x32_0_1_2 : S4096x128x1.BroadcastsInDim S4096x128x32 (![0, 1, 2] : Fin 3 → Fin S4096x128x32.rank)
  shapeCasts_S4096x128x32_S4096x4096 : S4096x128x32.ShapeCasts S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  gather_S16_S4096x4096x1_S4096x4096_n_0_n_n_0_2_1_wf : GatherDims.WF S16 S4096x4096x1 S4096x4096 [] [0] [] [0] [] 2 ![1]
  dot_S8192x4096_S4096x4096_S8192x4096_1_1_0_0_n_n_wf : DotDims.WF S8192x4096 S4096x4096 S8192x4096 [1] [1] [0] [0] [] []

variable [Facts₀]

def gather_S16_S4096x4096x1_S4096x4096_n_0_n_n_0_2_1 : GatherDims S16 S4096x4096x1 S4096x4096 where
  offsetDims := []
  collapsedSliceDims := [0]
  operandBatchingDims := []
  startIndicesBatchingDims := []
  startIndexMap := [0]
  indexVectorDim := 2
  sliceSizes := ![1]
  wf := gather_S16_S4096x4096x1_S4096x4096_n_0_n_n_0_2_1_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.KReg0.lean ====
/-
  Region 0 (the dequantization kernel, grid of 8 row bands of 512 output rows) at the buffer contents `V` the region is
  entered with: each window's block at a point, what the body leaves in the two output staging buffers as functions
  of the two input blocks, the pipeline's proof data and the body obligation.
-/
import proofs.«410896_j20486994002773_1_alg».proof.Proof.Gen.Kernel.Launch
import proofs.«410896_j20486994002773_1_alg».proof.Proof.Gen.Kernel.Skeleton
import proofs.«410896_j20486994002773_1_alg».proof.Proof.Gen.Kernel.Points

import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The even-position plane's block from the packed words' block and the scales' block. -/
def loBlk (x0 : Vec F S512x2048 .i32) (x1 : Vec F S512x2048 .f32) : Vec F S512x2048 .bf16 := k0_pay1 (k0_pay5 x0 x1)
/-- The odd-position plane's block. -/
def hiBlk (x0 : Vec F S512x2048 .i32) (x1 : Vec F S512x2048 .f32) : Vec F S512x2048 .bf16 := k0_pay2 (k0_pay3 x1) (k0_pay4 x0)

/-! ## The input windows' buffers as the body finds them -/

/-- The packed words' current staging buffer holds their block at every point, for any proof data whose array is
    the region-entry one and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the scales' window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- Every load and store of the body goes through the whole block: the rectangle at zero offsets of the block's own sizes. -/
abbrev r0_0 : Rect S512x2048 := Rect.unit (s := S512x2048) ![0, 0] S512x2048.size inb_S512x2048_S512x2048_0_0

/-- Its offsets are zero. -/
theorem hz0 : (![0, 0] : Fin 2 → Nat) = fun _ => 0 := funext fun a => by fin_cases a <;> rfl

/-! ## The body's triple -/

set_option maxHeartbeats 1000000 in
/-- The kernel body on whole staging memrefs, the inputs' at read contents x0 (packed words) and x1 (scales) and the
    outputs' at anything, runs to the continuation holding the inputs' as they were, the first output's at the
    even-position plane of the two and the second's at the odd-position plane. -/
theorem sound_kernel0 (c : Dev nD) (E : Set ℕ) (i : grid0.Coords)
    (arg1 : Memref sig .tc .vmem S512x2048 .i32) (harg1 : arg1.IsWhole) (arg2 : Memref sig .tc .vmem S512x2048 .f32) (harg2 : arg2.IsWhole)
    (arg3 : Memref sig .tc .vmem S512x2048 .bf16) (harg3 : arg3.IsWhole) (arg4 : Memref sig .tc .vmem S512x2048 .bf16) (harg4 : arg4.IsWhole)
    (x0 : Vec F S512x2048 .i32) (x1 : Vec F S512x2048 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (loBlk x0 x1) ∗ owns (c : Thread nD τ) arg4 fullShare (hiBlk x0 x1)) -∗ K ⟨⟩))
      ⊢ wp frame (wpE (defs₀ (F := F)) Variants.none c none) E (cc0__dequant_kernel i arg1 harg1 arg2 harg2 arg3 harg3 arg4 harg4) K := by
  simp only [cc0__dequant_kernel_eq_skeleton]; unfold cc0__dequant_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero hz0 inb_S512x2048_S512x2048_0_0 y⟩)]
    dsimp only
    rw [View.canon_unit_zero hz0]
    simp only [View.readAt_eq_ld, View.ld_unit_zero (S := S512x2048) hz0]
    rfl
  iexists _; isplitr
  swap; · iexact H3
  ipureintro
  rw [View.read_writes_eq_canon _ _ _ (fun y => ⟨_, List.mem_singleton_self _, View.mem_set_unit_zero hz0 inb_S512x2048_S512x2048_0_0 y⟩)]
  dsimp only
  rw [View.canon_unit_zero hz0]
  simp only [View.readAt_eq_ld, View.ld_unit_zero (S := S512x2048) hz0]
  rfl

/-! ## The pipeline's proof data -/

/-- The proof data of pipeline 0 on core c: the arrays as the region finds them; after the body at a point each
    input's buffer at its block, the first output's at the even-position plane of the two input blocks and the
    second's at the odd-position plane; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => loBlk (iblk0 V c 0 t) (iblk0 V c 1 t)
    | ⟨3, _⟩ => hiBlk (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = loBlk (iblk0 V c 0 t) (iblk0 V c 1 t) := by dsimp only [dat0]
theorem after0_3 (c : Dev nD) (t : Fin cfg0.N) : (dat0 V c).after 3 t = hiBlk (iblk0 V c 0 t) (iblk0 V c 1 t) := by dsimp only [dat0]

/-- The invariant, the tallies owed and the shares, at every point and window. -/
theorem Phi0 (c : Dev nD) (t : Fin (cfg0.N + 1)) : (dat0 V c).Φ t = Pipeline.ΦA spec0 c := by dsimp only [dat0]
theorem owed0 (c : Dev nD) (t : Fin (cfg0.N + 1)) : (dat0 V c).owed t = 0 := by dsimp only [dat0]
theorem q0 (c : Dev nD) (w : Fin cfg0.W) : (dat0 V c).q w = fullShare := by dsimp only [dat0]
theorem rec0 (c : Dev nD) (t : Fin (cfg0.N + 1)) : (dat0 V c).recorded t = Set.univ := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1.lean ====
/-
  Region 1 (the tiled matmul, grid 8 × 4 × 2: row band, column band, half of the contraction) at the buffer contents `V`
  the region is entered with. The accumulator scratch is reset at the first half and carried to the second, where the
  bias row is added and the output block stored; the output window is idle at the first half.
-/
import proofs.«410896_j20486994002773_1_alg».proof.Proof.Gen.Kernel.Launch
import proofs.«410896_j20486994002773_1_alg».proof.Proof.Gen.Kernel.Skeleton
import proofs.«410896_j20486994002773_1_alg».proof.Proof.Gen.Kernel.Points

import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after a first-half point: the zero fill plus the half product. -/
def accE (x : Vec F S1024x2048 .f32) (w : Vec F S1024x2048 .bf16) : Vec F S1024x1024 .f32 := k1_pay2 x w (k1_pay1 (F := F))
/-- The accumulator after a second-half point, over what the first half left. -/
def accO (x : Vec F S1024x2048 .f32) (w : Vec F S1024x2048 .bf16) (prev : Vec F S1024x1024 .f32) : Vec F S1024x1024 .f32 := k1_pay2 x w prev
/-- The output block: the accumulator plus the bias row. -/
def outO (b : Vec F S1024 .f32) (acc : Vec F S1024x1024 .f32) : Vec F S1024x1024 .f32 := k1_pay3 b acc

/-- The point before `t`. -/
def prevPt (t : Fin cfg1.N) : Fin cfg1.N := ⟨t.val - 1, Nat.lt_of_le_of_lt (Nat.sub_le _ _) t.isLt⟩

/-! ## The body's two conditions -/

/-- The first conditional's condition (the contraction half is the first), from the grid coordinates. -/
abbrev cond1_0 (i : grid1.Coords) : Prop := (Scalar.cmpi .ne (Scalar.extui (Scalar.cmpi .eq (BitVec.ofNat 32 (i 2).val) 0#32)) 0#32) = 1#1
/-- It holds exactly at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second conditional's condition (the contraction half is the last). -/
abbrev cond1_1 (i : grid1.Coords) : Prop := k1_cond2 i = 1#1
/-- It holds exactly at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At an even point the output window is idle, and not written back. -/
theorem idleAt1_3_E : ∀ t : Fin cfg1.N, t.val % 2 = 0 → cfg1.idle 3 (grid1.coords t) = true := by decide +kernel
theorem noFlush1_3_E : ∀ t : Fin cfg1.N, t.val % 2 = 0 → (cfg1.win 3).flush t = false := by decide +kernel
/-- At an odd point it is live. -/
theorem liveAt1_3_O : ∀ t : Fin cfg1.N, t.val % 2 = 1 → cfg1.idle 3 (grid1.coords t) = false := by decide +kernel

/-- The zero offsets of a whole-block rectangle, of rank two and of rank one. -/
theorem hz2 : (![0, 0] : Fin 2 → Nat) = fun _ => 0 := funext fun a => by fin_cases a <;> rfl
theorem hz1 : (![0] : Fin 1 → Nat) = fun _ => 0 := funext fun a => by fin_cases a; rfl

/-- A whole-block store that reads back a reset of the same block: the block ends at the update of the reset value. -/
theorem read_reset_update {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (g : (S.Idx → Val e) → S.Idx → Val e) (z : S.Idx → Val e) :
    v.read Val (v.writes Val f [⟨Rect.unit off S.size inb, g (v.readCov [⟨Rect.unit off S.size inb, z⟩] (Rect.unit off S.size inb).toLoadRect)⟩, ⟨Rect.unit off S.size inb, z⟩]) = g z := by
  rw [View.read_writes_eq_canon _ _ _ (fun y => ⟨_, List.mem_cons_self, View.mem_set_unit_zero h inb y⟩),
    View.canon_cons_unit_zero h, View.readCov_unit_zero _ h]

/-- A whole-block store, last: the block ends at its payload. -/
theorem read_store_last {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f (⟨Rect.unit off S.size inb, w⟩ :: L)) = w := by
  rw [View.read_writes_eq_canon _ _ _ (fun y => ⟨_, List.mem_cons_self, View.mem_set_unit_zero h inb y⟩),
    View.canon_cons_unit_zero h]

/-- A whole-block load of a whole buffer reads its contents. -/
theorem readAt_unread {sig : RefSig} {sp : Space} {S : Shape} {e : EltTy} {Val : EltTy → Type}
    (m : Memref sig .tc sp S e) (hm : m.IsWhole) {off : Fin S.rank → Nat} (h : off = fun _ => 0)
    (inb : ∀ a, off a + S.size a ≤ S.size a) (X : S.Idx → Val e) :
    View.readAt Val m.view (Rect.unit off S.size inb).toLoadRect (hm.unread X) = X := by
  rw [View.readAt_eq_ld, hm.read_unread, View.ld_unit_zero h]

set_option maxHeartbeats 1000000 in
/-- A first-half point: the accumulator is reset, then the half product added. -/
theorem run_E (c : Dev nD) (E : Set ℕ) (i : grid1.Coords) (hc1 : cond1_0 i) (hc2 : ¬ cond1_1 i)
    (arg3 : Memref sig .tc .vmem S1024x2048 .f32) (harg3 : arg3.IsWhole) (arg4 : Memref sig .tc .vmem S1024x2048 .bf16) (harg4 : arg4.IsWhole)
    (arg5 : Memref sig .tc .vmem S1024 .f32) (harg5 : arg5.IsWhole) (arg6 : Memref sig .tc .vmem S1024x1024 .f32) (harg6 : arg6.IsWhole)
    (arg7 : Memref sig .tc .vmem S1024x1024 .f32) (harg7 : arg7.IsWhole)
    (x : Vec F S1024x2048 .f32) (w : Vec F S1024x2048 .bf16) (K : PUnit → sProp 𝕄) :
    iprop(owns (c : Thread nD τ) arg3 fullShare x ∗ owns (c : Thread nD τ) arg4 fullShare w ∗ (∃ d, owns (c : Thread nD τ) arg7 fullShare d)
        ∗ (iprop(owns (c : Thread nD τ) arg3 fullShare x ∗ owns (c : Thread nD τ) arg4 fullShare w ∗ owns (c : Thread nD τ) arg7 fullShare (accE x w)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%d, %f7, %hf7, H7⟩, Hk⟩
  obtain rfl := harg3.eq_unread hf3; obtain rfl := harg4.eq_unread hf4; obtain rfl := harg7.eq_unread hf7
  sl_exec (disch := first | exact hc1 | exact hc2)

  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  sl_unfold_words
  rw [readAt_unread arg3 harg3 hz2, readAt_unread arg4 harg4 hz2]
  exact read_reset_update (S := S1024x1024) (Val := Elt F) arg7.view (harg7.unread d) hz2 inb_S1024x1024_S1024x1024_0_0 (fun a => k1_pay2 x w a) (k1_pay1 (F := F))

set_option maxHeartbeats 1000000 in
/-- A second-half point: the half product is added to what the first half left, and the output block is the sum plus the bias row. -/
theorem run_O (c : Dev nD) (E : Set ℕ) (i : grid1.Coords) (hc1 : ¬ cond1_0 i) (hc2 : cond1_1 i)
    (arg3 : Memref sig .tc .vmem S1024x2048 .f32) (harg3 : arg3.IsWhole) (arg4 : Memref sig .tc .vmem S1024x2048 .bf16) (harg4 : arg4.IsWhole)
    (arg5 : Memref sig .tc .vmem S1024 .f32) (harg5 : arg5.IsWhole) (arg6 : Memref sig .tc .vmem S1024x1024 .f32) (harg6 : arg6.IsWhole)
    (arg7 : Memref sig .tc .vmem S1024x1024 .f32) (harg7 : arg7.IsWhole)
    (x : Vec F S1024x2048 .f32) (w : Vec F S1024x2048 .bf16) (b : Vec F S1024 .f32) (prev : Vec F S1024x1024 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare prev
        ∗ (iprop(owns (c : Thread nD τ) arg3 fullShare x ∗ owns (c : Thread nD τ) arg4 fullShare w ∗ owns (c : Thread nD τ) arg5 fullShare b
            ∗ owns (c : Thread nD τ) arg6 fullShare (outO b (accO x w prev)) ∗ owns (c : Thread nD τ) arg7 fullShare (accO x w prev)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d, %f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [readAt_unread arg3 harg3 hz2, readAt_unread arg4 harg4 hz2, readAt_unread arg5 harg5 hz1, readAt_unread arg7 harg7 hz2]
    rw [View.readCov_unit_zero (S := S1024x1024) (Val := Elt F) arg7.view hz2 inb_S1024x1024_S1024x1024_0_0 (k1_pay2 x w prev)]
    exact read_store_last (S := S1024x1024) (Val := Elt F) arg6.view (harg6.unread d) hz2 inb_S1024x1024_S1024x1024_0_0 (k1_pay3 b (k1_pay2 x w prev)) []
  iexists _; isplitr
  swap; · iexact H7
  ipureintro
  sl_unfold_words
  rw [readAt_unread arg3 harg3 hz2, readAt_unread arg4 harg4 hz2, readAt_unread arg7 harg7 hz2]
  exact read_store_last (S := S1024x1024) (Val := Elt F) arg7.view (harg7.unread prev) hz2 inb_S1024x1024_S1024x1024_0_0 (k1_pay2 x w prev) []

/-! ## What the accumulator holds after each point -/

/-- The accumulator after the body at position `n`, in closed form: after a first-half point the reset plus that half's
    product; after a second-half point that plus this half's product. -/
def sc1 (c : Dev nD) (n : ℕ) (hn : n < cfg1.N) : Vec F S1024x1024 .f32 :=
  if n % 2 = 0 then accE (iblk1 V c 0 ⟨n, hn⟩) (iblk1 V c 1 ⟨n, hn⟩)
  else accO (iblk1 V c 0 ⟨n, hn⟩) (iblk1 V c 1 ⟨n, hn⟩) (accE (iblk1 V c 0 (prevPt ⟨n, hn⟩)) (iblk1 V c 1 (prevPt ⟨n, hn⟩)))

theorem sc1_even (c : Dev nD) (t : Fin cfg1.N) (h : t.val % 2 = 0) :
    sc1 V c t.val t.isLt = accE (iblk1 V c 0 t) (iblk1 V c 1 t) := by
  obtain ⟨n, hn⟩ := t
  exact if_pos h

theorem sc1_odd (c : Dev nD) (t : Fin cfg1.N) (h : t.val % 2 = 1) :
    sc1 V c t.val t.isLt = accO (iblk1 V c 0 t) (iblk1 V c 1 t) (accE (iblk1 V c 0 (prevPt t)) (iblk1 V c 1 (prevPt t))) := by
  obtain ⟨n, hn⟩ := t
  have h' : ¬ n % 2 = 0 := by dsimp only at h; omega
  exact if_neg h'

/-- Before a second-half point the accumulator holds the first half's. -/
theorem sc1_pred (c : Dev nD) (t : Fin cfg1.N) (h : t.val % 2 = 1) (hn : t.val - 1 < cfg1.N) :
    sc1 V c (t.val - 1) hn = accE (iblk1 V c 0 (prevPt t)) (iblk1 V c 1 (prevPt t)) := by
  obtain ⟨n, hn'⟩ := t
  have h' : (n - 1) % 2 = 0 := by dsimp only at h; omega
  exact if_pos h'

/-- A second-half point's accumulator over what the point before left. -/
theorem sc1_step (c : Dev nD) (t : Fin cfg1.N) (h : t.val % 2 = 1) (hn : t.val - 1 < cfg1.N) :
    sc1 V c t.val t.isLt = accO (iblk1 V c 0 t) (iblk1 V c 1 t) (sc1 V c (t.val - 1) hn) := by
  rw [sc1_odd V c t h, sc1_pred V c t h hn]

/-! ## The invariant -/

/-- The accumulator, a whole scoped buffer of the kernel's own. -/
abbrev scM1 : Memref sig .tc .vmem S1024x1024 .f32 := Memref.whole cc1_scratch0

/-- A scoped buffer of the core at some contents. -/
abbrev anyBuf (c : Dev nD) (b : Ref sig .tc) : sProp 𝕄 :=
  iprop(∃ f : Buf (Elt F) ((c : Thread nD τ).loc b), ((c : Thread nD τ).loc b) ↦{fullShare} f)

/-- The other region's eight staging buffers, each at some contents. -/
def stg8 (c : Dev nD) : sProp 𝕄 :=
  iprop(anyBuf (F := F) c cc0_stg0_0 ∗ anyBuf (F := F) c cc0_stg0_1 ∗ anyBuf (F := F) c cc0_stg1_0 ∗ anyBuf (F := F) c cc0_stg1_1
    ∗ anyBuf (F := F) c cc0_stg2_0 ∗ anyBuf (F := F) c cc0_stg2_1 ∗ anyBuf (F := F) c cc0_stg3_0 ∗ anyBuf (F := F) c cc0_stg3_1)

/-- What the launch hands the region: those eight, the accumulator at some contents, the generator register at some state. -/
theorem PhiA1_split (c : Dev nD) :
    (Pipeline.ΦA spec1 c : sProp 𝕄) ⊢ iprop(stg8 (F := F) c ∗ (∃ d, owns (c : Thread nD τ) scM1 fullShare d) ∗ (∃ r, prngReg c r)) := by
  unfold Pipeline.ΦA stg8; rw [scopedRest1_eq]; simp only [scM1, owns_whole]
  iintro ⟨⟨A0, A1, A2, A3, A4, A5, A6, A7, HS⟩, Hg⟩
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [HS]; · iexact HS
  iexact Hg

theorem PhiA1_join (c : Dev nD) :
    iprop(stg8 (F := F) c ∗ (∃ d, owns (c : Thread nD τ) scM1 fullShare d) ∗ (∃ r, prngReg c r)) ⊢ (Pipeline.ΦA spec1 c : sProp 𝕄) := by
  unfold Pipeline.ΦA stg8; rw [scopedRest1_eq]; simp only [scM1, owns_whole]
  iintro ⟨⟨A0, A1, A2, A3, A4, A5, A6, A7⟩, HS, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact HS
  iexact Hg

/-- The two are one assertion. -/
theorem PhiA1_eq (c : Dev nD) :
    (Pipeline.ΦA spec1 c : sProp 𝕄) = iprop(stg8 (F := F) c ∗ (∃ d, owns (c : Thread nD τ) scM1 fullShare d) ∗ (∃ r, prngReg c r)) :=
  BI.equiv_iff.mp ⟨PhiA1_split c, PhiA1_join c⟩

/-- The region invariant before position `n`: before the first point what the launch hands over; afterwards the same with
    the accumulator at what the point before left in it. -/
def PhiS1 (c : Dev nD) : (n : ℕ) → n ≤ cfg1.N → sProp 𝕄
  | 0, _ => Pipeline.ΦA spec1 c
  | n + 1, hn => iprop(stg8 (F := F) c ∗ owns (c : Thread nD τ) scM1 fullShare (sc1 V c n hn) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(stg8 (F := F) c ∗ owns (c : Thread nD τ) scM1 fullShare (sc1 V c n hn) ∗ (∃ r, prngReg c r)) := rfl

theorem PhiS1_pos (c : Dev nD) (n : ℕ) (h : n ≤ cfg1.N) (hz : n ≠ 0) :
    PhiS1 V c n h = iprop(stg8 (F := F) c ∗ owns (c : Thread nD τ) scM1 fullShare (sc1 V c (n - 1) (by omega)) ∗ (∃ r, prngReg c r)) := by
  cases n with
  | zero => exact absurd rfl hz
  | succ n => rfl

/-! ## The pipeline's proof data -/

/-- The proof data of pipeline 1 on core `c`: the arrays as the region finds them; after the body each input's buffer at
    its block and the output's at the accumulator plus the bias row; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outO (iblk1 V c 2 t) (sc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3' (c : Dev nD) (t : Fin cfg1.N) : (dat1 V c).after 3 t = outO (iblk1 V c 2 t) (sc1 V c t.val t.isLt) := by dsimp only [dat1]

/-- What a second-half point leaves in the output window's staging buffer. -/
theorem after1_3 (c : Dev nD) (t : Fin cfg1.N) (h : t.val % 2 = 1) :
    (dat1 V c).after 3 t = outO (iblk1 V c 2 t) (accO (iblk1 V c 0 t) (iblk1 V c 1 t) (accE (iblk1 V c 0 (prevPt t)) (iblk1 V c 1 (prevPt t)))) := by
  rw [after1_3', sc1_odd V c t h]
theorem owed1 (c : Dev nD) (t : Fin (cfg1.N + 1)) : (dat1 V c).owed t = 0 := rfl
theorem q1 (c : Dev nD) (w : Fin cfg1.W) : (dat1 V c).q w = fullShare := rfl
theorem rec1 (c : Dev nD) (t : Fin (cfg1.N + 1)) : (dat1 V c).recorded t = Set.univ := rfl

theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation -/

/-- Each window's current staging memref at point `t`, spelled as the pipeline passes it, and its wholeness. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3_O (c : Dev nD) (t : Fin cfg1.N) (h : t.val % 2 = 1) :
    (dat1 V c).leavesExact 3 t = owns (c : Thread nD τ) (ms1_3 t) fullShare (outO (iblk1 V c 2 t) (sc1 V c t.val t.isLt)) := by
  unfold Dat.leavesExact; rw [liveAt1_3_O t h, after1_3']

set_option maxHeartbeats 4800000 in
/-- The body at any point: the inputs' memrefs hold their blocks; the point's parity says which case it is in; the invariant
    hands the body the accumulator at what the point before left (at anything before the first point) and takes it back at
    this point's contents; at a first-half point the output's buffer is handed back as found; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, PhiS1_castSucc]
  rcases Nat.mod_two_eq_zero_or_one t.val with h | h
  · have hc1 : cond1_0 (grid1.coords t) := (hcond1_0 t).mpr h
    have hc2 : ¬ cond1_1 (grid1.coords t) := fun hh => by have := (hcond1_1 t).mp hh; omega
    rw [Dat.leavesExact_idle (dat1 V c) 3 t (idleAt1_3_E t h) (noFlush1_3_E t h), sc1_even V c t h]
    by_cases hz : t.val = 0
    · rw [PhiS1_zero V c _ _ hz, PhiA1_eq]
      iintro ⟨⟨HR, HS, Hg⟩, Ho, ⟨%d0, H0⟩, ⟨%d1, H1⟩, ⟨%d2, H2⟩, H3⟩
      iapply (run_E c Set.univ (grid1.coords t) hc1 hc2 (ms1_0 t) (hs1_0 t) (ms1_1 t) (hs1_1 t) (ms1_2 t) (hs1_2 t) (ms1_3 t) (hs1_3 t)
        scM1 (Memref.isWhole_whole _) (iblk1 V c 0 t) (iblk1 V c 1 t) _)
      isplitl [H0]; · iexact H0
      isplitl [H1]; · iexact H1
      isplitl [HS]; · iexact HS
      iintro ⟨H0, H1, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexact H3
    · rw [PhiS1_pos V c _ _ hz]
      iintro ⟨⟨HR, HS, Hg⟩, Ho, ⟨%d0, H0⟩, ⟨%d1, H1⟩, ⟨%d2, H2⟩, H3⟩
      iapply (run_E c Set.univ (grid1.coords t) hc1 hc2 (ms1_0 t) (hs1_0 t) (ms1_1 t) (hs1_1 t) (ms1_2 t) (hs1_2 t) (ms1_3 t) (hs1_3 t)
        scM1 (Memref.isWhole_whole _) (iblk1 V c 0 t) (iblk1 V c 1 t) _)
      isplitl [H0]; · iexact H0
      isplitl [H1]; · iexact H1
      isplitl [HS]; · iexists _; iexact HS
      iintro ⟨H0, H1, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexact H3
  · have hc1 : ¬ cond1_0 (grid1.coords t) := fun hh => by have := (hcond1_0 t).mp hh; omega
    have hc2 : cond1_1 (grid1.coords t) := (hcond1_1 t).mpr h
    have hz : t.val ≠ 0 := by omega
    rw [leaves1_3_O V c t h, PhiS1_pos V c _ _ hz, sc1_step V c t h (Nat.lt_of_le_of_lt (Nat.sub_le _ _) t.isLt)]
    iintro ⟨⟨HR, HS, Hg⟩, Ho, ⟨%d0, H0⟩, ⟨%d1, H1⟩, ⟨%d2, H2⟩, ⟨%d3, H3⟩⟩
    iapply (run_O c Set.univ (grid1.coords t) hc1 hc2 (ms1_0 t) (hs1_0 t) (ms1_1 t) (hs1_1 t) (ms1_2 t) (hs1_2 t) (ms1_3 t) (hs1_3 t)
      scM1 (Memref.isWhole_whole _) (iblk1 V c 0 t) (iblk1 V c 1 t) (iblk1 V c 2 t) (sc1 V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HR HS Hg]
    · isplitl [HR]; · iexact HR
      isplitl [HS]; · iexact HS
      iexact Hg
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives it back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HR, HS, Hg⟩
  isplitl [HR]; · iexact HR
  isplitl [HS]; · iexists _; iexact HS
  iexact Hg

/-- After the last point the invariant gives it back. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.KRun.lean ====
/-
  The whole program's run: @main is two host stretches and two kernel regions in turn. The buffer contents at each
  boundary are a fold from the launch memory (a host stretch applies its operations; a region leaves its arrays at what
  its write-backs make of them and everything else as entered), each region is entered from the boundary before it and
  left at the one after it, and the last boundary is read against the final state: the result array holds what region
  1's write-backs leave, and the four argument arrays are walked back through the fold to their launch contents (no host
  operation writes one, and a region only reads them).
-/
import proofs.«410896_j20486994002773_1_alg».proof.Proof.Gen.Kernel.Launch
import proofs.«410896_j20486994002773_1_alg».proof.Proof.Gen.Kernel.Skeleton
import proofs.«410896_j20486994002773_1_alg».proof.Proof.Gen.Kernel.Points
import proofs.«410896_j20486994002773_1_alg».proof.Proof.Gen.Kernel.Regions
import proofs.«410896_j20486994002773_1_alg».proof.Proof.KReg0
import proofs.«410896_j20486994002773_1_alg».proof.Proof.KReg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## A host stretch leaves what it does not write -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((dat1 (V3 m) c).arrAt_in 0 rfl _).trans (A_eq1 (V3 m) c 0))
    _ = W2 m c (Proc.devRef .tc main_arg0) := W3_of m c main_arg0 (by decide)
    _ = W1 m c (Proc.devRef .tc main_arg0) := W2_of_ne m c main_arg0 (by decide)
    _ = W0 m c (Proc.devRef .tc main_arg0) := W1_of m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := (W2_arr m c 0).trans (((dat0 (V1 m) c).arrAt_in 0 rfl _).trans (A_eq0 (V1 m) c 0))
    _ = W0 m c (Proc.devRef .tc main_arg1) := W1_of m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := (W4_arr m c 2).trans (((dat1 (V3 m) c).arrAt_in 2 rfl _).trans (A_eq1 (V3 m) c 2))
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl

/-! ## The proof data family and the thread state -/

/-- No pipeline has a prefetched table. -/
abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V1 m) c
  | ⟨1, _⟩ => fun c => dat1 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun c t => owed0 (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm' (pdats m) launch0.win launch0.arr_whole c
      ((pdats m 0 c).share_full fun w => q0 (V1 m) c w) (V1 m c) fun w => A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed0 (V1 m) c 0]
      icases HO with ⟨%W, HO⟩; iexists W; isplitr
      · ipureintro; exact fun x _ => Or.inl (show x ∈ (dat0 (V1 m) c).recorded 0 from by rw [rec0]; exact Set.mem_univ _)
      iexact HO
    isplitl [Hp]; · iexact Hp
    iexact Hrest
  hin c := by
    rw [show (pdats m 0 c).Φ 0 = Pipeline.ΦA spec0 c from Phi0 (V1 m) c 0]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Phi0 (V1 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun w => q0 (V1 m) c w)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from owed0 (V1 m) c _]
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun c t => owed1 (V3 m) c t
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm' (pdats m) launch1.win launch1.arr_whole c
      ((pdats m 1 c).share_full fun w => q1 (V3 m) c w) (V3 m c) fun w => A_eq1 (V3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed1 (V3 m) c 0]
      icases HO with ⟨%W, HO⟩; iexists W; isplitr
      · ipureintro; exact fun x _ => Or.inl (show x ∈ (dat1 (V3 m) c).recorded 0 from by rw [rec1]; exact Set.mem_univ _)
      iexact HO
    isplitl [Hp]; · iexact Hp
    iexact Hrest
  hin c := by
    refine (?_ : _ ⊢ (Pipeline.ΦA spec1 c : sProp 𝕄)).trans (hin1 (V3 m) c)
    unfold Pipeline.ΦA
    iintro ⟨Hp, -, Hr⟩
    isplitl [Hr]; · iexact Hr
    iexact Hp
  hout c := by
    rw [Pipeline.ownSems0_none]
    refine (hout1 (V3 m) c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun w => q1 (V3 m) c w)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m 1 c).owed (Fin.last _) = 0 from owed1 (V3 m) c _]
    icases HO with ⟨%W, -, HO⟩; iexists W; iexact HO

/-! ## @main as segments, and the launch -/

/-- @main's four segments in order. -/
abbrev segs : List (Pipeline.Seg (pcfgs (F := F)) adm' (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting; the result
    array ends at what region 1's write-backs leave and the four argument arrays end as launched. -/
theorem run_main : θ_run defs (onTc (τ := τ) (main (F := F))) ⟨m, fun _ => 0, ρ⟩ (fun r => ∀ c : Dev nD,
      r.2.mem ((c.tc : Thread nD τ).loc main_v13) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v13 (by decide))).trans (W4_arr m c 3),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c)⟩)

end Cert.Kernel.Hand

end
-- ==== Proof.Reg0.lean ====
/-
  Region 0 (the dequantization kernel, grid of 8 row bands of 512 output rows) at the buffer contents `V` the region is
  entered with: each window's block at a point, what the body leaves in the two output staging buffers as functions
  of the two input blocks, the pipeline's proof data and the body obligation.
-/
import proofs.«410896_j20486994002773_1_alg».proof.Proof.Gen.KernelIdeal.Launch
import proofs.«410896_j20486994002773_1_alg».proof.Proof.Gen.KernelIdeal.Skeleton
import proofs.«410896_j20486994002773_1_alg».proof.Proof.Gen.KernelIdeal.Points

import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The even-position plane's block from the packed words' block and the scales' block. -/
def loBlk (x0 : Vec F S512x2048 .i32) (x1 : Vec F S512x2048 .f32) : Vec F S512x2048 .bf16 := k0_pay1 (k0_pay5 x0 x1)
/-- The odd-position plane's block. -/
def hiBlk (x0 : Vec F S512x2048 .i32) (x1 : Vec F S512x2048 .f32) : Vec F S512x2048 .bf16 := k0_pay2 (k0_pay3 x1) (k0_pay4 x0)

/-! ## The input windows' buffers as the body finds them -/

/-- The packed words' current staging buffer holds their block at every point, for any proof data whose array is
    the region-entry one and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the scales' window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- Every load and store of the body goes through the whole block: the rectangle at zero offsets of the block's own sizes. -/
abbrev r0_0 : Rect S512x2048 := Rect.unit (s := S512x2048) ![0, 0] S512x2048.size inb_S512x2048_S512x2048_0_0

/-- Its offsets are zero. -/
theorem hz0 : (![0, 0] : Fin 2 → Nat) = fun _ => 0 := funext fun a => by fin_cases a <;> rfl

/-! ## The body's triple -/

set_option maxHeartbeats 1000000 in
/-- The kernel body on whole staging memrefs, the inputs' at read contents x0 (packed words) and x1 (scales) and the
    outputs' at anything, runs to the continuation holding the inputs' as they were, the first output's at the
    even-position plane of the two and the second's at the odd-position plane. -/
theorem sound_kernel0 (c : Dev nD) (E : Set ℕ) (i : grid0.Coords)
    (arg1 : Memref sig .tc .vmem S512x2048 .i32) (harg1 : arg1.IsWhole) (arg2 : Memref sig .tc .vmem S512x2048 .f32) (harg2 : arg2.IsWhole)
    (arg3 : Memref sig .tc .vmem S512x2048 .bf16) (harg3 : arg3.IsWhole) (arg4 : Memref sig .tc .vmem S512x2048 .bf16) (harg4 : arg4.IsWhole)
    (x0 : Vec F S512x2048 .i32) (x1 : Vec F S512x2048 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (loBlk x0 x1) ∗ owns (c : Thread nD τ) arg4 fullShare (hiBlk x0 x1)) -∗ K ⟨⟩))
      ⊢ wp frame (wpE (defs₀ (F := F)) Variants.none c none) E (cc0__dequant_kernel i arg1 harg1 arg2 harg2 arg3 harg3 arg4 harg4) K := by
  simp only [cc0__dequant_kernel_eq_skeleton]; unfold cc0__dequant_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero hz0 inb_S512x2048_S512x2048_0_0 y⟩)]
    dsimp only
    rw [View.canon_unit_zero hz0]
    simp only [View.readAt_eq_ld, View.ld_unit_zero (S := S512x2048) hz0]
    rfl
  iexists _; isplitr
  swap; · iexact H3
  ipureintro
  rw [View.read_writes_eq_canon _ _ _ (fun y => ⟨_, List.mem_singleton_self _, View.mem_set_unit_zero hz0 inb_S512x2048_S512x2048_0_0 y⟩)]
  dsimp only
  rw [View.canon_unit_zero hz0]
  simp only [View.readAt_eq_ld, View.ld_unit_zero (S := S512x2048) hz0]
  rfl

/-! ## The pipeline's proof data -/

/-- The proof data of pipeline 0 on core c: the arrays as the region finds them; after the body at a point each
    input's buffer at its block, the first output's at the even-position plane of the two input blocks and the
    second's at the odd-position plane; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => loBlk (iblk0 V c 0 t) (iblk0 V c 1 t)
    | ⟨3, _⟩ => hiBlk (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = loBlk (iblk0 V c 0 t) (iblk0 V c 1 t) := by dsimp only [dat0]
theorem after0_3 (c : Dev nD) (t : Fin cfg0.N) : (dat0 V c).after 3 t = hiBlk (iblk0 V c 0 t) (iblk0 V c 1 t) := by dsimp only [dat0]

/-- The invariant, the tallies owed and the shares, at every point and window. -/
theorem Phi0 (c : Dev nD) (t : Fin (cfg0.N + 1)) : (dat0 V c).Φ t = Pipeline.ΦA spec0 c := by dsimp only [dat0]
theorem owed0 (c : Dev nD) (t : Fin (cfg0.N + 1)) : (dat0 V c).owed t = 0 := by dsimp only [dat0]
theorem q0 (c : Dev nD) (w : Fin cfg0.W) : (dat0 V c).q w = fullShare := by dsimp only [dat0]
theorem rec0 (c : Dev nD) (t : Fin (cfg0.N + 1)) : (dat0 V c).recorded t = Set.univ := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Reg1.lean ====
/-
  Region 1 (the tiled matmul, grid 8 × 4 × 2: row band, column band, half of the contraction) at the buffer contents `V`
  the region is entered with. The accumulator scratch is reset at the first half and carried to the second, where the
  bias row is added and the output block stored; the output window is idle at the first half.
-/
import proofs.«410896_j20486994002773_1_alg».proof.Proof.Gen.KernelIdeal.Launch
import proofs.«410896_j20486994002773_1_alg».proof.Proof.Gen.KernelIdeal.Skeleton
import proofs.«410896_j20486994002773_1_alg».proof.Proof.Gen.KernelIdeal.Points

import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after a first-half point: the zero fill plus the half product. -/
def accE (x : Vec F S1024x2048 .f32) (w : Vec F S1024x2048 .bf16) : Vec F S1024x1024 .f32 := k1_pay2 x w (k1_pay1 (F := F))
/-- The accumulator after a second-half point, over what the first half left. -/
def accO (x : Vec F S1024x2048 .f32) (w : Vec F S1024x2048 .bf16) (prev : Vec F S1024x1024 .f32) : Vec F S1024x1024 .f32 := k1_pay2 x w prev
/-- The output block: the accumulator plus the bias row. -/
def outO (b : Vec F S1024 .f32) (acc : Vec F S1024x1024 .f32) : Vec F S1024x1024 .f32 := k1_pay3 b acc

/-- The point before `t`. -/
def prevPt (t : Fin cfg1.N) : Fin cfg1.N := ⟨t.val - 1, Nat.lt_of_le_of_lt (Nat.sub_le _ _) t.isLt⟩

/-! ## The body's two conditions -/

/-- The first conditional's condition (the contraction half is the first), from the grid coordinates. -/
abbrev cond1_0 (i : grid1.Coords) : Prop := (Scalar.cmpi .ne (Scalar.extui (Scalar.cmpi .eq (BitVec.ofNat 32 (i 2).val) 0#32)) 0#32) = 1#1
/-- It holds exactly at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second conditional's condition (the contraction half is the last). -/
abbrev cond1_1 (i : grid1.Coords) : Prop := k1_cond2 i = 1#1
/-- It holds exactly at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At an even point the output window is idle, and not written back. -/
theorem idleAt1_3_E : ∀ t : Fin cfg1.N, t.val % 2 = 0 → cfg1.idle 3 (grid1.coords t) = true := by decide +kernel
theorem noFlush1_3_E : ∀ t : Fin cfg1.N, t.val % 2 = 0 → (cfg1.win 3).flush t = false := by decide +kernel
/-- At an odd point it is live. -/
theorem liveAt1_3_O : ∀ t : Fin cfg1.N, t.val % 2 = 1 → cfg1.idle 3 (grid1.coords t) = false := by decide +kernel

/-- The zero offsets of a whole-block rectangle, of rank two and of rank one. -/
theorem hz2 : (![0, 0] : Fin 2 → Nat) = fun _ => 0 := funext fun a => by fin_cases a <;> rfl
theorem hz1 : (![0] : Fin 1 → Nat) = fun _ => 0 := funext fun a => by fin_cases a; rfl

/-- A whole-block store that reads back a reset of the same block: the block ends at the update of the reset value. -/
theorem read_reset_update {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (g : (S.Idx → Val e) → S.Idx → Val e) (z : S.Idx → Val e) :
    v.read Val (v.writes Val f [⟨Rect.unit off S.size inb, g (v.readCov [⟨Rect.unit off S.size inb, z⟩] (Rect.unit off S.size inb).toLoadRect)⟩, ⟨Rect.unit off S.size inb, z⟩]) = g z := by
  rw [View.read_writes_eq_canon _ _ _ (fun y => ⟨_, List.mem_cons_self, View.mem_set_unit_zero h inb y⟩),
    View.canon_cons_unit_zero h, View.readCov_unit_zero _ h]

/-- A whole-block store, last: the block ends at its payload. -/
theorem read_store_last {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f (⟨Rect.unit off S.size inb, w⟩ :: L)) = w := by
  rw [View.read_writes_eq_canon _ _ _ (fun y => ⟨_, List.mem_cons_self, View.mem_set_unit_zero h inb y⟩),
    View.canon_cons_unit_zero h]

/-- A whole-block load of a whole buffer reads its contents. -/
theorem readAt_unread {sig : RefSig} {sp : Space} {S : Shape} {e : EltTy} {Val : EltTy → Type}
    (m : Memref sig .tc sp S e) (hm : m.IsWhole) {off : Fin S.rank → Nat} (h : off = fun _ => 0)
    (inb : ∀ a, off a + S.size a ≤ S.size a) (X : S.Idx → Val e) :
    View.readAt Val m.view (Rect.unit off S.size inb).toLoadRect (hm.unread X) = X := by
  rw [View.readAt_eq_ld, hm.read_unread, View.ld_unit_zero h]

set_option maxHeartbeats 1000000 in
/-- A first-half point: the accumulator is reset, then the half product added. -/
theorem run_E (c : Dev nD) (E : Set ℕ) (i : grid1.Coords) (hc1 : cond1_0 i) (hc2 : ¬ cond1_1 i)
    (arg3 : Memref sig .tc .vmem S1024x2048 .f32) (harg3 : arg3.IsWhole) (arg4 : Memref sig .tc .vmem S1024x2048 .bf16) (harg4 : arg4.IsWhole)
    (arg5 : Memref sig .tc .vmem S1024 .f32) (harg5 : arg5.IsWhole) (arg6 : Memref sig .tc .vmem S1024x1024 .f32) (harg6 : arg6.IsWhole)
    (arg7 : Memref sig .tc .vmem S1024x1024 .f32) (harg7 : arg7.IsWhole)
    (x : Vec F S1024x2048 .f32) (w : Vec F S1024x2048 .bf16) (K : PUnit → sProp 𝕄) :
    iprop(owns (c : Thread nD τ) arg3 fullShare x ∗ owns (c : Thread nD τ) arg4 fullShare w ∗ (∃ d, owns (c : Thread nD τ) arg7 fullShare d)
        ∗ (iprop(owns (c : Thread nD τ) arg3 fullShare x ∗ owns (c : Thread nD τ) arg4 fullShare w ∗ owns (c : Thread nD τ) arg7 fullShare (accE x w)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%d, %f7, %hf7, H7⟩, Hk⟩
  obtain rfl := harg3.eq_unread hf3; obtain rfl := harg4.eq_unread hf4; obtain rfl := harg7.eq_unread hf7
  sl_exec (disch := first | exact hc1 | exact hc2)

  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  sl_unfold_words
  rw [readAt_unread arg3 harg3 hz2, readAt_unread arg4 harg4 hz2]
  exact read_reset_update (S := S1024x1024) (Val := Elt F) arg7.view (harg7.unread d) hz2 inb_S1024x1024_S1024x1024_0_0 (fun a => k1_pay2 x w a) (k1_pay1 (F := F))

set_option maxHeartbeats 1000000 in
/-- A second-half point: the half product is added to what the first half left, and the output block is the sum plus the bias row. -/
theorem run_O (c : Dev nD) (E : Set ℕ) (i : grid1.Coords) (hc1 : ¬ cond1_0 i) (hc2 : cond1_1 i)
    (arg3 : Memref sig .tc .vmem S1024x2048 .f32) (harg3 : arg3.IsWhole) (arg4 : Memref sig .tc .vmem S1024x2048 .bf16) (harg4 : arg4.IsWhole)
    (arg5 : Memref sig .tc .vmem S1024 .f32) (harg5 : arg5.IsWhole) (arg6 : Memref sig .tc .vmem S1024x1024 .f32) (harg6 : arg6.IsWhole)
    (arg7 : Memref sig .tc .vmem S1024x1024 .f32) (harg7 : arg7.IsWhole)
    (x : Vec F S1024x2048 .f32) (w : Vec F S1024x2048 .bf16) (b : Vec F S1024 .f32) (prev : Vec F S1024x1024 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare prev
        ∗ (iprop(owns (c : Thread nD τ) arg3 fullShare x ∗ owns (c : Thread nD τ) arg4 fullShare w ∗ owns (c : Thread nD τ) arg5 fullShare b
            ∗ owns (c : Thread nD τ) arg6 fullShare (outO b (accO x w prev)) ∗ owns (c : Thread nD τ) arg7 fullShare (accO x w prev)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d, %f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [readAt_unread arg3 harg3 hz2, readAt_unread arg4 harg4 hz2, readAt_unread arg5 harg5 hz1, readAt_unread arg7 harg7 hz2]
    rw [View.readCov_unit_zero (S := S1024x1024) (Val := Elt F) arg7.view hz2 inb_S1024x1024_S1024x1024_0_0 (k1_pay2 x w prev)]
    exact read_store_last (S := S1024x1024) (Val := Elt F) arg6.view (harg6.unread d) hz2 inb_S1024x1024_S1024x1024_0_0 (k1_pay3 b (k1_pay2 x w prev)) []
  iexists _; isplitr
  swap; · iexact H7
  ipureintro
  sl_unfold_words
  rw [readAt_unread arg3 harg3 hz2, readAt_unread arg4 harg4 hz2, readAt_unread arg7 harg7 hz2]
  exact read_store_last (S := S1024x1024) (Val := Elt F) arg7.view (harg7.unread prev) hz2 inb_S1024x1024_S1024x1024_0_0 (k1_pay2 x w prev) []

/-! ## What the accumulator holds after each point -/

/-- The accumulator after the body at position `n`, in closed form: after a first-half point the reset plus that half's
    product; after a second-half point that plus this half's product. -/
def sc1 (c : Dev nD) (n : ℕ) (hn : n < cfg1.N) : Vec F S1024x1024 .f32 :=
  if n % 2 = 0 then accE (iblk1 V c 0 ⟨n, hn⟩) (iblk1 V c 1 ⟨n, hn⟩)
  else accO (iblk1 V c 0 ⟨n, hn⟩) (iblk1 V c 1 ⟨n, hn⟩) (accE (iblk1 V c 0 (prevPt ⟨n, hn⟩)) (iblk1 V c 1 (prevPt ⟨n, hn⟩)))

theorem sc1_even (c : Dev nD) (t : Fin cfg1.N) (h : t.val % 2 = 0) :
    sc1 V c t.val t.isLt = accE (iblk1 V c 0 t) (iblk1 V c 1 t) := by
  obtain ⟨n, hn⟩ := t
  exact if_pos h

theorem sc1_odd (c : Dev nD) (t : Fin cfg1.N) (h : t.val % 2 = 1) :
    sc1 V c t.val t.isLt = accO (iblk1 V c 0 t) (iblk1 V c 1 t) (accE (iblk1 V c 0 (prevPt t)) (iblk1 V c 1 (prevPt t))) := by
  obtain ⟨n, hn⟩ := t
  have h' : ¬ n % 2 = 0 := by dsimp only at h; omega
  exact if_neg h'

/-- Before a second-half point the accumulator holds the first half's. -/
theorem sc1_pred (c : Dev nD) (t : Fin cfg1.N) (h : t.val % 2 = 1) (hn : t.val - 1 < cfg1.N) :
    sc1 V c (t.val - 1) hn = accE (iblk1 V c 0 (prevPt t)) (iblk1 V c 1 (prevPt t)) := by
  obtain ⟨n, hn'⟩ := t
  have h' : (n - 1) % 2 = 0 := by dsimp only at h; omega
  exact if_pos h'

/-- A second-half point's accumulator over what the point before left. -/
theorem sc1_step (c : Dev nD) (t : Fin cfg1.N) (h : t.val % 2 = 1) (hn : t.val - 1 < cfg1.N) :
    sc1 V c t.val t.isLt = accO (iblk1 V c 0 t) (iblk1 V c 1 t) (sc1 V c (t.val - 1) hn) := by
  rw [sc1_odd V c t h, sc1_pred V c t h hn]

/-! ## The invariant -/

/-- The accumulator, a whole scoped buffer of the kernel's own. -/
abbrev scM1 : Memref sig .tc .vmem S1024x1024 .f32 := Memref.whole cc1_scratch0

/-- A scoped buffer of the core at some contents. -/
abbrev anyBuf (c : Dev nD) (b : Ref sig .tc) : sProp 𝕄 :=
  iprop(∃ f : Buf (Elt F) ((c : Thread nD τ).loc b), ((c : Thread nD τ).loc b) ↦{fullShare} f)

/-- The other region's eight staging buffers, each at some contents. -/
def stg8 (c : Dev nD) : sProp 𝕄 :=
  iprop(anyBuf (F := F) c cc0_stg0_0 ∗ anyBuf (F := F) c cc0_stg0_1 ∗ anyBuf (F := F) c cc0_stg1_0 ∗ anyBuf (F := F) c cc0_stg1_1
    ∗ anyBuf (F := F) c cc0_stg2_0 ∗ anyBuf (F := F) c cc0_stg2_1 ∗ anyBuf (F := F) c cc0_stg3_0 ∗ anyBuf (F := F) c cc0_stg3_1)

/-- What the launch hands the region: those eight, the accumulator at some contents, the generator register at some state. -/
theorem PhiA1_split (c : Dev nD) :
    (Pipeline.ΦA spec1 c : sProp 𝕄) ⊢ iprop(stg8 (F := F) c ∗ (∃ d, owns (c : Thread nD τ) scM1 fullShare d) ∗ (∃ r, prngReg c r)) := by
  unfold Pipeline.ΦA stg8; rw [scopedRest1_eq]; simp only [scM1, owns_whole]
  iintro ⟨⟨A0, A1, A2, A3, A4, A5, A6, A7, HS⟩, Hg⟩
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [HS]; · iexact HS
  iexact Hg

theorem PhiA1_join (c : Dev nD) :
    iprop(stg8 (F := F) c ∗ (∃ d, owns (c : Thread nD τ) scM1 fullShare d) ∗ (∃ r, prngReg c r)) ⊢ (Pipeline.ΦA spec1 c : sProp 𝕄) := by
  unfold Pipeline.ΦA stg8; rw [scopedRest1_eq]; simp only [scM1, owns_whole]
  iintro ⟨⟨A0, A1, A2, A3, A4, A5, A6, A7⟩, HS, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact HS
  iexact Hg

/-- The two are one assertion. -/
theorem PhiA1_eq (c : Dev nD) :
    (Pipeline.ΦA spec1 c : sProp 𝕄) = iprop(stg8 (F := F) c ∗ (∃ d, owns (c : Thread nD τ) scM1 fullShare d) ∗ (∃ r, prngReg c r)) :=
  BI.equiv_iff.mp ⟨PhiA1_split c, PhiA1_join c⟩

/-- The region invariant before position `n`: before the first point what the launch hands over; afterwards the same with
    the accumulator at what the point before left in it. -/
def PhiS1 (c : Dev nD) : (n : ℕ) → n ≤ cfg1.N → sProp 𝕄
  | 0, _ => Pipeline.ΦA spec1 c
  | n + 1, hn => iprop(stg8 (F := F) c ∗ owns (c : Thread nD τ) scM1 fullShare (sc1 V c n hn) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(stg8 (F := F) c ∗ owns (c : Thread nD τ) scM1 fullShare (sc1 V c n hn) ∗ (∃ r, prngReg c r)) := rfl

theorem PhiS1_pos (c : Dev nD) (n : ℕ) (h : n ≤ cfg1.N) (hz : n ≠ 0) :
    PhiS1 V c n h = iprop(stg8 (F := F) c ∗ owns (c : Thread nD τ) scM1 fullShare (sc1 V c (n - 1) (by omega)) ∗ (∃ r, prngReg c r)) := by
  cases n with
  | zero => exact absurd rfl hz
  | succ n => rfl

/-! ## The pipeline's proof data -/

/-- The proof data of pipeline 1 on core `c`: the arrays as the region finds them; after the body each input's buffer at
    its block and the output's at the accumulator plus the bias row; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outO (iblk1 V c 2 t) (sc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3' (c : Dev nD) (t : Fin cfg1.N) : (dat1 V c).after 3 t = outO (iblk1 V c 2 t) (sc1 V c t.val t.isLt) := by dsimp only [dat1]

/-- What a second-half point leaves in the output window's staging buffer. -/
theorem after1_3 (c : Dev nD) (t : Fin cfg1.N) (h : t.val % 2 = 1) :
    (dat1 V c).after 3 t = outO (iblk1 V c 2 t) (accO (iblk1 V c 0 t) (iblk1 V c 1 t) (accE (iblk1 V c 0 (prevPt t)) (iblk1 V c 1 (prevPt t)))) := by
  rw [after1_3', sc1_odd V c t h]
theorem owed1 (c : Dev nD) (t : Fin (cfg1.N + 1)) : (dat1 V c).owed t = 0 := rfl
theorem q1 (c : Dev nD) (w : Fin cfg1.W) : (dat1 V c).q w = fullShare := rfl
theorem rec1 (c : Dev nD) (t : Fin (cfg1.N + 1)) : (dat1 V c).recorded t = Set.univ := rfl

theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation -/

/-- Each window's current staging memref at point `t`, spelled as the pipeline passes it, and its wholeness. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3_O (c : Dev nD) (t : Fin cfg1.N) (h : t.val % 2 = 1) :
    (dat1 V c).leavesExact 3 t = owns (c : Thread nD τ) (ms1_3 t) fullShare (outO (iblk1 V c 2 t) (sc1 V c t.val t.isLt)) := by
  unfold Dat.leavesExact; rw [liveAt1_3_O t h, after1_3']

set_option maxHeartbeats 4800000 in
/-- The body at any point: the inputs' memrefs hold their blocks; the point's parity says which case it is in; the invariant
    hands the body the accumulator at what the point before left (at anything before the first point) and takes it back at
    this point's contents; at a first-half point the output's buffer is handed back as found; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, PhiS1_castSucc]
  rcases Nat.mod_two_eq_zero_or_one t.val with h | h
  · have hc1 : cond1_0 (grid1.coords t) := (hcond1_0 t).mpr h
    have hc2 : ¬ cond1_1 (grid1.coords t) := fun hh => by have := (hcond1_1 t).mp hh; omega
    rw [Dat.leavesExact_idle (dat1 V c) 3 t (idleAt1_3_E t h) (noFlush1_3_E t h), sc1_even V c t h]
    by_cases hz : t.val = 0
    · rw [PhiS1_zero V c _ _ hz, PhiA1_eq]
      iintro ⟨⟨HR, HS, Hg⟩, Ho, ⟨%d0, H0⟩, ⟨%d1, H1⟩, ⟨%d2, H2⟩, H3⟩
      iapply (run_E c Set.univ (grid1.coords t) hc1 hc2 (ms1_0 t) (hs1_0 t) (ms1_1 t) (hs1_1 t) (ms1_2 t) (hs1_2 t) (ms1_3 t) (hs1_3 t)
        scM1 (Memref.isWhole_whole _) (iblk1 V c 0 t) (iblk1 V c 1 t) _)
      isplitl [H0]; · iexact H0
      isplitl [H1]; · iexact H1
      isplitl [HS]; · iexact HS
      iintro ⟨H0, H1, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexact H3
    · rw [PhiS1_pos V c _ _ hz]
      iintro ⟨⟨HR, HS, Hg⟩, Ho, ⟨%d0, H0⟩, ⟨%d1, H1⟩, ⟨%d2, H2⟩, H3⟩
      iapply (run_E c Set.univ (grid1.coords t) hc1 hc2 (ms1_0 t) (hs1_0 t) (ms1_1 t) (hs1_1 t) (ms1_2 t) (hs1_2 t) (ms1_3 t) (hs1_3 t)
        scM1 (Memref.isWhole_whole _) (iblk1 V c 0 t) (iblk1 V c 1 t) _)
      isplitl [H0]; · iexact H0
      isplitl [H1]; · iexact H1
      isplitl [HS]; · iexists _; iexact HS
      iintro ⟨H0, H1, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexact H3
  · have hc1 : ¬ cond1_0 (grid1.coords t) := fun hh => by have := (hcond1_0 t).mp hh; omega
    have hc2 : cond1_1 (grid1.coords t) := (hcond1_1 t).mpr h
    have hz : t.val ≠ 0 := by omega
    rw [leaves1_3_O V c t h, PhiS1_pos V c _ _ hz, sc1_step V c t h (Nat.lt_of_le_of_lt (Nat.sub_le _ _) t.isLt)]
    iintro ⟨⟨HR, HS, Hg⟩, Ho, ⟨%d0, H0⟩, ⟨%d1, H1⟩, ⟨%d2, H2⟩, ⟨%d3, H3⟩⟩
    iapply (run_O c Set.univ (grid1.coords t) hc1 hc2 (ms1_0 t) (hs1_0 t) (ms1_1 t) (hs1_1 t) (ms1_2 t) (hs1_2 t) (ms1_3 t) (hs1_3 t)
      scM1 (Memref.isWhole_whole _) (iblk1 V c 0 t) (iblk1 V c 1 t) (iblk1 V c 2 t) (sc1 V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HR HS Hg]
    · isplitl [HR]; · iexact HR
      isplitl [HS]; · iexact HS
      iexact Hg
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives it back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HR, HS, Hg⟩
  isplitl [HR]; · iexact HR
  isplitl [HS]; · iexists _; iexact HS
  iexact Hg

/-- After the last point the invariant gives it back. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.Run.lean ====
/-
  The whole program's run: @main is two host stretches and two kernel regions in turn. The buffer contents at each
  boundary are a fold from the launch memory (a host stretch applies its operations; a region leaves its arrays at what
  its write-backs make of them and everything else as entered), each region is entered from the boundary before it and
  left at the one after it, and the last boundary is read against the final state: the result array holds what region
  1's write-backs leave, and the four argument arrays are walked back through the fold to their launch contents (no host
  operation writes one, and a region only reads them).
-/
import proofs.«410896_j20486994002773_1_alg».proof.Proof.Gen.KernelIdeal.Launch
import proofs.«410896_j20486994002773_1_alg».proof.Proof.Gen.KernelIdeal.Skeleton
import proofs.«410896_j20486994002773_1_alg».proof.Proof.Gen.KernelIdeal.Points
import proofs.«410896_j20486994002773_1_alg».proof.Proof.Gen.KernelIdeal.Regions
import proofs.«410896_j20486994002773_1_alg».proof.Proof.Reg0
import proofs.«410896_j20486994002773_1_alg».proof.Proof.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## A host stretch leaves what it does not write -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((dat1 (V3 m) c).arrAt_in 0 rfl _).trans (A_eq1 (V3 m) c 0))
    _ = W2 m c (Proc.devRef .tc main_arg0) := W3_of m c main_arg0 (by decide)
    _ = W1 m c (Proc.devRef .tc main_arg0) := W2_of_ne m c main_arg0 (by decide)
    _ = W0 m c (Proc.devRef .tc main_arg0) := W1_of m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := (W2_arr m c 0).trans (((dat0 (V1 m) c).arrAt_in 0 rfl _).trans (A_eq0 (V1 m) c 0))
    _ = W0 m c (Proc.devRef .tc main_arg1) := W1_of m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := (W4_arr m c 2).trans (((dat1 (V3 m) c).arrAt_in 2 rfl _).trans (A_eq1 (V3 m) c 2))
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl

/-! ## The proof data family and the thread state -/

/-- No pipeline has a prefetched table. -/
abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V1 m) c
  | ⟨1, _⟩ => fun c => dat1 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun c t => owed0 (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm' (pdats m) launch0.win launch0.arr_whole c
      ((pdats m 0 c).share_full fun w => q0 (V1 m) c w) (V1 m c) fun w => A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed0 (V1 m) c 0]
      icases HO with ⟨%W, HO⟩; iexists W; isplitr
      · ipureintro; exact fun x _ => Or.inl (show x ∈ (dat0 (V1 m) c).recorded 0 from by rw [rec0]; exact Set.mem_univ _)
      iexact HO
    isplitl [Hp]; · iexact Hp
    iexact Hrest
  hin c := by
    rw [show (pdats m 0 c).Φ 0 = Pipeline.ΦA spec0 c from Phi0 (V1 m) c 0]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Phi0 (V1 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun w => q0 (V1 m) c w)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from owed0 (V1 m) c _]
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun c t => owed1 (V3 m) c t
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm' (pdats m) launch1.win launch1.arr_whole c
      ((pdats m 1 c).share_full fun w => q1 (V3 m) c w) (V3 m c) fun w => A_eq1 (V3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed1 (V3 m) c 0]
      icases HO with ⟨%W, HO⟩; iexists W; isplitr
      · ipureintro; exact fun x _ => Or.inl (show x ∈ (dat1 (V3 m) c).recorded 0 from by rw [rec1]; exact Set.mem_univ _)
      iexact HO
    isplitl [Hp]; · iexact Hp
    iexact Hrest
  hin c := by
    refine (?_ : _ ⊢ (Pipeline.ΦA spec1 c : sProp 𝕄)).trans (hin1 (V3 m) c)
    unfold Pipeline.ΦA
    iintro ⟨Hp, -, Hr⟩
    isplitl [Hr]; · iexact Hr
    iexact Hp
  hout c := by
    rw [Pipeline.ownSems0_none]
    refine (hout1 (V3 m) c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun w => q1 (V3 m) c w)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m 1 c).owed (Fin.last _) = 0 from owed1 (V3 m) c _]
    icases HO with ⟨%W, -, HO⟩; iexists W; iexact HO

/-! ## @main as segments, and the launch -/

/-- @main's four segments in order. -/
abbrev segs : List (Pipeline.Seg (pcfgs (F := F)) adm' (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting; the result
    array ends at what region 1's write-backs leave and the four argument arrays end as launched. -/
theorem run_main : θ_run defs (onTc (τ := τ) (main (F := F))) ⟨m, fun _ => 0, ρ⟩ (fun r => ∀ c : Dev nD,
      r.2.mem ((c.tc : Thread nD τ).loc main_v13) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v13 (by decide))).trans (W4_arr m c 3),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c)⟩)

end Cert.KernelIdeal.Hand

end
-- ==== Proof.Spec.lean ====
/-
  The mathematics both programs compute, stated once over plain coordinates.

  A weight word `w` of the packed array carries two 4-bit E2M1 codes: the low nibble `w &&& 15` is the weight at the
  even input position `2j`, the nibble above it `(w >>ₛ 4) &&& 15` the weight at `2j + 1`. A code `k` denotes the real
  `lutR k` (sign bit 3, exponent bits 2..1, mantissa bit 0: 0, 1/2, 1, 3/2, 2, 3, 4, 6 and their negatives). A block of 32
  consecutive input positions shares a power-of-two scale with exponent word `s`; both programs compute it as
  `exp (ln2 · (s - 4))` with `ln2` the SAME single-precision literal, so the scale is carried as that expression and
  never evaluated. The result is `x · Wᵀ + bias`.
-/
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

/-- The activations and the result: 8192 rows of 4096. -/
abbrev SX : Shape := ⟨2, ![8192, 4096]⟩
/-- The packed weights: 4096 output rows of 2048 words, two codes a word. -/
abbrev SP : Shape := ⟨2, ![4096, 2048]⟩
/-- The block exponents: 4096 output rows of 128 blocks. -/
abbrev SE : Shape := ⟨2, ![4096, 128]⟩
/-- The bias: one entry per output column. -/
abbrev SB : Shape := ⟨1, ![4096]⟩

/-- The sixteen E2M1 values, by code. -/
def lutR : Fin 16 → ℝ := ![0, 1/2, 1, 3/2, 2, 3, 4, 6, 0, -(1/2), -1, -(3/2), -2, -3, -4, -6]

/-- The low nibble of a packed word. -/
def loNib (w : BitVec 32) : BitVec 32 := w &&& 15#32
/-- The nibble above it (arithmetic shift: the mask removes the sign fill). -/
def hiNib (w : BitVec 32) : BitVec 32 := (w.sshiftRight' 4#32) &&& 15#32

theorem and15_lt (v : BitVec 32) : (v &&& 15#32).toNat < 16 := by
  rw [BitVec.toNat_and]
  exact Nat.lt_of_le_of_lt Nat.and_le_right (by decide)

theorem loNib_lt (w : BitVec 32) : (loNib w).toNat < 16 := and15_lt w
theorem hiNib_lt (w : BitVec 32) : (hiNib w).toNat < 16 := and15_lt _

/-- The code of weight `(o, i)`: nibble `i % 2` of word `(o, i / 2)`. -/
def code (wp : IVec SP 32) (o i : Fin 4096) : Fin 16 :=
  if i.val % 2 = 0 then ⟨(loNib (wp (ix2 o (⟨i.val / 2, by omega⟩ : Fin 2048)))).toNat, loNib_lt _⟩
  else ⟨(hiNib (wp (ix2 o (⟨i.val / 2, by omega⟩ : Fin 2048)))).toNat, hiNib_lt _⟩

/-- The single-precision literal both programs multiply the exponent by (0.693147182…, the format's nearest to ln 2). -/
abbrev ln2w : BitVec 32 := 0x3F317218#32

/-- A block's scale from its exponent word: `exp (ln2 · (s - 4))`, the subtraction in the integers. -/
def scl (s : BitVec 32) : EReal :=
  Ideal.exp (Ideal.ofBits .f32 ln2w * (((s.toInt - 4 : ℤ) : ℝ) : EReal))

/-- The dequantized weight `(o, i)`: its code's value times its block's scale. -/
def wgt (wp : IVec SP 32) (se : IVec SE 32) (o i : Fin 4096) : EReal :=
  ((lutR (code wp o i) : ℝ) : EReal) * scl (se (ix2 o (⟨i.val / 32, by omega⟩ : Fin 128)))

/-- One entry of `x · Wᵀ + bias`. -/
def gAt (x : SX.Idx → EReal) (wp : IVec SP 32) (se : IVec SE 32) (b : SB.Idx → EReal) (p : Fin 8192) (q : Fin 4096) : EReal :=
  (∑ i : Fin 4096, x (ix2 p i) * wgt wp se q i) + b (ix1 q)

/-- The result array. -/
def G (x : SX.Idx → EReal) (wp : IVec SP 32) (se : IVec SE 32) (b : SB.Idx → EReal) : SX.Idx → EReal :=
  fun j => gAt x wp se b (j 0) (j 1)

theorem G_apply (x : SX.Idx → EReal) (wp : IVec SP 32) (se : IVec SE 32) (b : SB.Idx → EReal) (p : Fin 8192) (q : Fin 4096) :
    G x wp se b (ix2 p q) = (∑ i : Fin 4096, x (ix2 p i) * wgt wp se q i) + b (ix1 q) := rfl

/-- A sum over 4096 positions is the sum over the first 2048 plus the sum over the last 2048. -/
theorem sum_halves (f : Fin 4096 → EReal) :
    ∑ i : Fin 4096, f i = (∑ k : Fin 2048, f ⟨k.val, by omega⟩) + ∑ k : Fin 2048, f ⟨2048 + k.val, by omega⟩ := by
  have h := Fin.sum_univ_add (a := 2048) (b := 2048) (f := fun i => f i)
  rw [h]
  rfl

/-- For an exponent word in the format's range the wrapping 32-bit `s - 4` is the integer `s - 4`. -/
theorem toInt_sub4 (s : BitVec 32) (h0 : 0 ≤ s.toInt) (h1 : s.toInt ≤ 255) : (s - 4#32).toInt = s.toInt - 4 := by
  rw [BitVec.toInt_sub]
  have : (4#32 : BitVec 32).toInt = 4 := by decide
  rw [this]
  have h232 : ((2 ^ 32 : ℕ) : ℤ) = 4294967296 := by norm_num
  unfold Int.bmod
  rw [h232]
  dsimp only
  omega

/-- The literal 4.0 is the real 4. -/
theorem ofBits_four : Ideal.ofBits .f32 0x40800000#32 = ((4 : ℝ) : EReal) := by
  simp [Ideal.ofBits, Ideal.ieee, -EReal.coe_mul]; norm_num

end Cert.Spec

end
-- ==== Proof.Arrays.lean ====
/-
  The intermediate arrays of the kernel's road, as whole-array functions over plain coordinates: the two dequantized
  planes (even and odd input positions), their interleaving into the dense weight matrix, and the product with the
  activations plus the bias. `wgt_of_planes` joins them to the specification's weight.
-/
import proofs.«410896_j20486994002773_1_alg».proof.Proof.Spec

noncomputable section

open scoped BigOperators

namespace Cert.Spec

open Idealize.ShloMosaic Idealize.ShloMosaic.ValueIdx

/-- The dense weight matrix: 4096 output rows of 4096 input positions. -/
abbrev SW : Shape := ⟨2, ![4096, 4096]⟩

/-- The even-position plane: the low nibble's value times the per-word scale. -/
def loArr (wp : IVec SP 32) (sc : SP.Idx → EReal) : SP.Idx → EReal :=
  fun j => ((lutR ⟨(loNib (wp j)).toNat, loNib_lt _⟩ : ℝ) : EReal) * sc j
/-- The odd-position plane: the high nibble's value times the per-word scale. -/
def hiArr (wp : IVec SP 32) (sc : SP.Idx → EReal) : SP.Idx → EReal :=
  fun j => ((lutR ⟨(hiNib (wp j)).toNat, hiNib_lt _⟩ : ℝ) : EReal) * sc j

/-- The per-word scale array: word `(o, j)` lies in block `j / 16`. -/
def sclArr (se : IVec SE 32) : SP.Idx → EReal :=
  fun j => scl (se (ix2 (j 0) (⟨(j 1).val / 16, by have := idx2_lt1 j; omega⟩ : Fin 128)))

/-- Two planes interleaved along the input axis: position `i` comes from plane `i % 2` at `i / 2`. -/
def interAt (lo hi : SP.Idx → EReal) (o i : Fin 4096) : EReal :=
  if i.val % 2 = 0 then lo (ix2 o (⟨i.val / 2, by omega⟩ : Fin 2048)) else hi (ix2 o (⟨i.val / 2, by omega⟩ : Fin 2048))
def inter (lo hi : SP.Idx → EReal) : SW.Idx → EReal := fun j => interAt lo hi (j 0) (j 1)

/-- One entry of `x · wᵀ + bias` for a dense weight matrix `w`. -/
def mmAt (x : SX.Idx → EReal) (w : SW.Idx → EReal) (b : SB.Idx → EReal) (p : Fin 8192) (q : Fin 4096) : EReal :=
  (∑ i : Fin 4096, x (ix2 p i) * w (ix2 q i)) + b (ix1 q)
def mmArr (x : SX.Idx → EReal) (w : SW.Idx → EReal) (b : SB.Idx → EReal) : SX.Idx → EReal :=
  fun j => mmAt x w b (j 0) (j 1)

/-- The interleaved planes ARE the specification's weights: position `i`'s word is `i / 2`, whose block `(i / 2) / 16`
    is `i / 32`. -/
theorem wgt_of_planes (wp : IVec SP 32) (se : IVec SE 32) (o i : Fin 4096) :
    interAt (loArr wp (sclArr se)) (hiArr wp (sclArr se)) o i = wgt wp se o i := by
  have hdiv : i.val / 2 / 16 = i.val / 32 := by omega
  unfold interAt wgt code
  by_cases h : i.val % 2 = 0
  · rw [if_pos h, if_pos h]
    simp only [loArr, sclArr, hdiv]
  · rw [if_neg h, if_neg h]
    simp only [hiArr, sclArr, hdiv]

/-- The kernel's road ends at the specification. -/
theorem mmArr_planes (x : SX.Idx → EReal) (wp : IVec SP 32) (se : IVec SE 32) (b : SB.Idx → EReal) :
    mmArr x (inter (loArr wp (sclArr se)) (hiArr wp (sclArr se))) b = G x wp se b := by
  funext j
  unfold mmArr mmAt G gAt inter
  congr 1
  exact Finset.sum_congr rfl fun i _ => by rw [← wgt_of_planes wp se (j 1) i]

end Cert.Spec

end
-- ==== Proof.Host.lean ====
/-
  The two host stretches of the kernel's @main read at an index, at the extended reals.
  Before region 0 the host turns the block exponents into per-word scales: `exp (ln2 · (s - 4))` with the subtraction
  done on the converted (exact) integers, repeated over the 16 words of a block — the specification's per-word scale.
  Between the regions it interleaves the two planes along the input axis: two trailing unit axes concatenated and the
  result reshaped, so position `i` comes from plane `i % 2` at word `i / 2`.
-/
import proofs.«410896_j20486994002773_1_alg».proof.Proof.Run
import proofs.«410896_j20486994002773_1_alg».proof.Proof.Arrays
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ)

/-! ## Buffers a stretch or a region does not write -/

theorem V1_arg1 (c : Dev nD) : V1 m c main_arg1 = m ((c : Thread nD τ).loc main_arg1) := W1_of m c main_arg1 (by decide)
theorem V3_arg0 (c : Dev nD) : V3 m c main_arg0 = m ((c : Thread nD τ).loc main_arg0) :=
  (W3_of m c main_arg0 (by decide)).trans ((W2_of_ne m c main_arg0 (by decide)).trans (W1_of m c main_arg0 (by decide)))
theorem V3_arg3 (c : Dev nD) : V3 m c main_arg3 = m ((c : Thread nD τ).loc main_arg3) :=
  (W3_of m c main_arg3 (by decide)).trans ((W2_of_ne m c main_arg3 (by decide)).trans (W1_of m c main_arg3 (by decide)))
/-- Region 0's two outputs, as region 1's side finds them. -/
theorem V2_v8_0 (c : Dev nD) : V2 m c main_v8_0 = (dat0 (V1 m) c).arrAt 2 cfg0.N := W2_arr m c 2
theorem V2_v8_1 (c : Dev nD) : V2 m c main_v8_1 = (dat0 (V1 m) c).arrAt 3 cfg0.N := W2_arr m c 3

/-! ## The first stretch: the per-word scales -/

/-- The scales' buffer as the stretch's composed term. -/
theorem v7_term (c : Dev nD) :
    (V1 m c main_v7 : S4096x2048.Idx → EReal)
      = shapeCast S4096x2048
          (broadcastInDim S4096x128x16 ![0, 1] bcast_S4096x128_S4096x128x16_0_1
            (Host.exp
              (mulf (broadcastInDim S4096x128 ![] bcast_S_S4096x128 (constant (F := Ideal) S_ .f32 0x3F317218#32))
                (subf (sitofp .f32 (m ((c : Thread nD τ).loc main_arg2)))
                  (broadcastInDim S4096x128 ![] bcast_S_S4096x128 (constant (F := Ideal) S_ .f32 0x40800000#32))))))
          shapeCasts_S4096x128x16_S4096x2048 := by
  show StableHlo.after hostOps0 (fun b => m (c, b)) (Proc.devRef .tc main_v7) = _
  after_results; rfl

/-- The integer `s` converted and then lowered by the literal 4.0 is the integer `s - 4`. -/
theorem sub_four (s : BitVec 32) :
    (((s.toInt : ℝ) : EReal)) - Ideal.ofBits .f32 0x40800000#32 = (((s.toInt - 4 : ℤ) : ℝ) : EReal) := by
  rw [Cert.Spec.ofBits_four, ← EReal.coe_sub]; push_cast; rfl

/-- The host's scale of an exponent word is the specification's. -/
theorem scale_at (s : BitVec 32) :
    Ideal.exp (Ideal.ofBits .f32 0x3F317218#32 * ((((s.toInt : ℝ) : EReal)) - Ideal.ofBits .f32 0x40800000#32)) = Cert.Spec.scl s := by
  rw [sub_four]; rfl

/-- Word `(o, w)`'s scale is its block's. -/
theorem v7_apply (c : Dev nD) (o : Fin 4096) (w : Fin 2048) :
    (V1 m c main_v7 : S4096x2048.Idx → EReal) (ix2 o w)
      = Cert.Spec.scl ((m ((c : Thread nD τ).loc main_arg2) : IVec S4096x128 32) (ix2 o (⟨w.val / 16, by omega⟩ : Fin 128))) := by
  rw [v7_term m c]
  rw [shapeCast_apply _ _ (ix2 o w) (ix3 o (⟨w.val / 16, by omega⟩ : Fin 128) (⟨w.val % 16, by omega⟩ : Fin 16))
    (by rw [Shape.rowMajor_val_three, Shape.rowMajor_val_two]
        show (o.val * 128 + w.val / 16) * 16 + w.val % 16 = o.val * 2048 + w.val
        omega)]
  rw [broadcastInDim_apply _ _ _ _ (ix2 o (⟨w.val / 16, by omega⟩ : Fin 128))
    (by intro a; match a with | ⟨0, _⟩ => rfl | ⟨1, _⟩ => rfl)]
  exact scale_at _

theorem v7_eq (c : Dev nD) :
    (V1 m c main_v7 : Cert.Spec.SP.Idx → EReal) = Cert.Spec.sclArr (m ((c : Thread nD τ).loc main_arg2)) := by
  funext j
  obtain ⟨o, w, rfl⟩ : ∃ (o : Fin 4096) (w : Fin 2048), j = ix2 o w := ⟨j 0, j 1, eq_ix2 j⟩
  exact v7_apply m c o w

/-! ## The second stretch: the planes interleaved -/

/-- The dense weights' buffer as the stretch's composed term. -/
theorem v12_term (c : Dev nD) :
    (V3 m c main_v12 : S4096x4096.Idx → EReal)
      = shapeCast S4096x4096
          (concatenate S4096x2048x2 2
            [⟨S4096x2048x1, broadcastInDim S4096x2048x1 ![0, 1] bcast_S4096x2048_S4096x2048x1_0_1 (V2 m c main_v8_0 : S4096x2048.Idx → EReal)⟩,
             ⟨S4096x2048x1, broadcastInDim S4096x2048x1 ![0, 1] bcast_S4096x2048_S4096x2048x1_0_1 (V2 m c main_v8_1 : S4096x2048.Idx → EReal)⟩]
            concatenates_S4096x2048x1_S4096x2048x1_S4096x2048x2_d2)
          shapeCasts_S4096x2048x2_S4096x4096 := by
  show StableHlo.after hostOps1 (W2 m c) (Proc.devRef .tc main_v12) = _
  after_results; rfl

/-- Position `(o, i)` of the dense weights is plane `i % 2` at word `(o, i / 2)`. -/
theorem v12_apply (c : Dev nD) (o i : Fin 4096) :
    (V3 m c main_v12 : S4096x4096.Idx → EReal) (ix2 o i)
      = Cert.Spec.interAt (V2 m c main_v8_0) (V2 m c main_v8_1) o i := by
  rw [v12_term m c]
  rw [shapeCast_apply _ _ (ix2 o i) (ix3 o (⟨i.val / 2, by omega⟩ : Fin 2048) (⟨i.val % 2, by omega⟩ : Fin 2))
    (by rw [Shape.rowMajor_val_three, Shape.rowMajor_val_two]
        show (o.val * 2048 + i.val / 2) * 2 + i.val % 2 = o.val * 4096 + i.val
        omega)]
  unfold Cert.Spec.interAt
  by_cases h : i.val % 2 = 0
  · rw [if_pos h]
    rw [concatenate_pair_apply_left (t := S4096x2048x2) (s₁ := S4096x2048x1) (s₂ := S4096x2048x1) (2 : Fin 3) _ _ _
      (ix3 o (⟨i.val / 2, by omega⟩ : Fin 2048) (⟨i.val % 2, by omega⟩ : Fin 2)) rfl
      (ix3 o (⟨i.val / 2, by omega⟩ : Fin 2048) (⟨0, by omega⟩ : Fin 1))
      (by intro b; match b with | ⟨0, _⟩ => rfl | ⟨1, _⟩ => rfl | ⟨2, _⟩ => exact h.symm)]
    exact broadcastInDim_apply _ _ _ _ (ix2 o (⟨i.val / 2, by omega⟩ : Fin 2048))
      (by intro a; match a with | ⟨0, _⟩ => rfl | ⟨1, _⟩ => rfl)
  · rw [if_neg h]
    have h1 : i.val % 2 = 1 := by omega
    rw [concatenate_pair_apply_right (t := S4096x2048x2) (s₁ := S4096x2048x1) (s₂ := S4096x2048x1) (2 : Fin 3) _ _ _
      (ix3 o (⟨i.val / 2, by omega⟩ : Fin 2048) (⟨i.val % 2, by omega⟩ : Fin 2)) rfl rfl
      (ix3 o (⟨i.val / 2, by omega⟩ : Fin 2048) (⟨0, by omega⟩ : Fin 1))
      (by intro b hb; match b with | ⟨0, _⟩ => rfl | ⟨1, _⟩ => rfl | ⟨2, _⟩ => exact absurd rfl hb)
      (by show 0 + 1 = i.val % 2; omega)]
    exact broadcastInDim_apply _ _ _ _ (ix2 o (⟨i.val / 2, by omega⟩ : Fin 2048))
      (by intro a; match a with | ⟨0, _⟩ => rfl | ⟨1, _⟩ => rfl)

theorem v12_eq (c : Dev nD) :
    (V3 m c main_v12 : Cert.Spec.SW.Idx → EReal) = Cert.Spec.inter (V2 m c main_v8_0) (V2 m c main_v8_1) := by
  funext j
  obtain ⟨o, i, rfl⟩ : ∃ (o : Fin 4096) (i : Fin 4096), j = ix2 o i := ⟨j 0, j 1, eq_ix2 j⟩
  exact v12_apply m c o i

end Cert.KernelIdeal.Hand

end
-- ==== Proof.Val0.lean ====
/-
  Region 0's two output arrays after the region, at the extended reals, as whole-array functions of the arrays the
  region was entered with: every block of 512 rows is written back once, and entry by entry the even-position plane is
  the low nibble's value times the word's scale, the odd-position plane the high nibble's. The kernel's arithmetic
  decoding of a 4-bit code (a sign bit, two exponent bits, one mantissa bit; `2^(e-1)` exactly) is the table's value in
  each of the sixteen cases.
-/
import proofs.«410896_j20486994002773_1_alg».proof.Proof.Reg0
import proofs.«410896_j20486994002773_1_alg».proof.Proof.Arrays
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-! ## The kernel's decoding of a code, as a function of the word holding it -/

/-- The magnitude from the exponent field and the mantissa bit: half the mantissa bit at exponent field zero, else one and a half
    the mantissa bit, times two to the exponent field less one. -/
def magW (e m : BitVec 32) : EReal :=
  Scalar.select (IntOp.cmpi .eq e 0#32)
    (((m.toInt : ℝ) : EReal) * Ideal.ofBits .f32 0x3F000000#32)
    ((Ideal.ofBits .f32 0x3F800000#32 + ((m.toInt : ℝ) : EReal) * Ideal.ofBits .f32 0x3F000000#32)
      * Ideal.exp2 (((e.toInt : ℝ) : EReal) - Ideal.ofBits .f32 0x3F800000#32))

/-- The value of a code word: its magnitude, negated when the sign bit is set. -/
def decW (v : BitVec 32) : EReal :=
  Scalar.select (IntOp.cmpi .eq (IntOp.andi (IntOp.shrsi .vector v 3#32) 1#32) 1#32)
    (Ideal.ofBits .f32 0x00000000#32 - magW (IntOp.andi (IntOp.shrsi .vector v 1#32) 3#32) (IntOp.andi v 1#32))
    (magW (IntOp.andi (IntOp.shrsi .vector v 1#32) 3#32) (IntOp.andi v 1#32))

/-- The even-position plane's block at an index: the low nibble's decoding times the scale there. -/
theorem loBlk_apply (x0 : Vec Ideal S512x2048 .i32) (x1 : Vec Ideal S512x2048 .f32) (j : S512x2048.Idx) :
    loBlk x0 x1 j = decW (IntOp.andi (x0 j) 15#32) * x1 j := by
  unfold loBlk k0_pay1 k0_pay5 k0_pay3
  rw [shapeCast_self]
  rfl

/-- The odd-position plane's block at an index: the high nibble's decoding times the scale there. -/
theorem hiBlk_apply (x0 : Vec Ideal S512x2048 .i32) (x1 : Vec Ideal S512x2048 .f32) (j : S512x2048.Idx) :
    hiBlk x0 x1 j = decW (IntOp.andi (IntOp.shrsi .vector (x0 j) 4#32) 15#32) * x1 j := by
  unfold hiBlk k0_pay2 k0_pay3 k0_pay4
  rw [shapeCast_self]
  rfl

/-- The three literals of the decoding are the reals they spell. -/
theorem ofBits_half : Ideal.ofBits .f32 0x3F000000#32 = (((1 / 2 : ℝ)) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee, -EReal.coe_mul]

/-- At exponent field zero the magnitude is half the mantissa bit. -/
theorem magW_sub (m : BitVec 32) (M : ℤ) (r : ℝ) (hM : m.toInt = M) (hr : (M : ℝ) * (1 / 2) = r) :
    magW 0#32 m = (r : EReal) := by
  unfold magW
  rw [show IntOp.cmpi .eq (0#32 : BitVec 32) 0#32 = 1#1 from by decide, select_one, ofBits_half, hM, ← EReal.coe_mul, hr]

/-- At exponent field E + 1 it is one and a half the mantissa bit, times two to the E. -/
theorem magW_nrm (e m : BitVec 32) (E : ℕ) (M : ℤ) (r : ℝ) (he : IntOp.cmpi .eq e 0#32 = 0#1) (hE : e.toInt = (E : ℤ) + 1)
    (hM : m.toInt = M) (hr : (1 + (M : ℝ) * (1 / 2)) * 2 ^ E = r) : magW e m = (r : EReal) := by
  unfold magW
  have hx : (((E : ℤ) + 1 : ℤ) : ℝ) - 1 = (E : ℝ) := by push_cast; ring
  rw [he, select_zero, ofBits_half, ofBits_one, hE, hM, ← EReal.coe_sub, Ideal.exp2_coe, hx, Real.rpow_eq_pow, Real.rpow_natCast,
    ← EReal.coe_mul, ← EReal.coe_add, ← EReal.coe_mul, hr]

theorem mag00 : magW 0#32 0#32 = ((0 : ℝ) : EReal) := magW_sub _ 0 _ (by decide) (by norm_num)
theorem mag01 : magW 0#32 1#32 = ((1 / 2 : ℝ) : EReal) := magW_sub _ 1 _ (by decide) (by norm_num)
theorem mag10 : magW 1#32 0#32 = ((1 : ℝ) : EReal) := magW_nrm _ _ 0 0 _ (by decide) (by decide) (by decide) (by norm_num)
theorem mag11 : magW 1#32 1#32 = ((3 / 2 : ℝ) : EReal) := magW_nrm _ _ 0 1 _ (by decide) (by decide) (by decide) (by norm_num)
theorem mag20 : magW 2#32 0#32 = ((2 : ℝ) : EReal) := magW_nrm _ _ 1 0 _ (by decide) (by decide) (by decide) (by norm_num)
theorem mag21 : magW 2#32 1#32 = ((3 : ℝ) : EReal) := magW_nrm _ _ 1 1 _ (by decide) (by decide) (by decide) (by norm_num)
theorem mag30 : magW 3#32 0#32 = ((4 : ℝ) : EReal) := magW_nrm _ _ 2 0 _ (by decide) (by decide) (by decide) (by norm_num)
theorem mag31 : magW 3#32 1#32 = ((6 : ℝ) : EReal) := magW_nrm _ _ 2 1 _ (by decide) (by decide) (by decide) (by norm_num)

/-- A code word with the sign bit clear decodes to its magnitude; -/
theorem decW_pos (v e m : BitVec 32) (r : ℝ) (he : IntOp.andi (IntOp.shrsi .vector v 1#32) 3#32 = e) (hm : IntOp.andi v 1#32 = m)
    (hs : IntOp.cmpi .eq (IntOp.andi (IntOp.shrsi .vector v 3#32) 1#32) 1#32 = 0#1) (hmag : magW e m = (r : EReal)) :
    decW v = (r : EReal) := by
  unfold decW
  rw [hs, select_zero, he, hm, hmag]

/-- one with the sign bit set, to its negative. -/
theorem decW_neg (v e m : BitVec 32) (r r' : ℝ) (he : IntOp.andi (IntOp.shrsi .vector v 1#32) 3#32 = e) (hm : IntOp.andi v 1#32 = m)
    (hs : IntOp.cmpi .eq (IntOp.andi (IntOp.shrsi .vector v 3#32) 1#32) 1#32 = 1#1) (hmag : magW e m = (r : EReal)) (hr : -r = r') :
    decW v = (r' : EReal) := by
  unfold decW
  rw [hs, select_one, he, hm, hmag, ofBits_zero, ← EReal.coe_sub, zero_sub, hr]

/-- The kernel's decoding of each of the sixteen codes is the table's value. -/
theorem decW_tab : ∀ k : Fin 16, decW (BitVec.ofNat 32 k.val) = ((Cert.Spec.lutR k : ℝ) : EReal)
  | ⟨0, _⟩ => decW_pos 0#32 _ _ _ (by decide) (by decide) (by decide) mag00
  | ⟨1, _⟩ => decW_pos 1#32 _ _ _ (by decide) (by decide) (by decide) mag01
  | ⟨2, _⟩ => decW_pos 2#32 _ _ _ (by decide) (by decide) (by decide) mag10
  | ⟨3, _⟩ => decW_pos 3#32 _ _ _ (by decide) (by decide) (by decide) mag11
  | ⟨4, _⟩ => decW_pos 4#32 _ _ _ (by decide) (by decide) (by decide) mag20
  | ⟨5, _⟩ => decW_pos 5#32 _ _ _ (by decide) (by decide) (by decide) mag21
  | ⟨6, _⟩ => decW_pos 6#32 _ _ _ (by decide) (by decide) (by decide) mag30
  | ⟨7, _⟩ => decW_pos 7#32 _ _ _ (by decide) (by decide) (by decide) mag31
  | ⟨8, _⟩ => decW_neg 8#32 _ _ _ _ (by decide) (by decide) (by decide) mag00 neg_zero
  | ⟨9, _⟩ => decW_neg 9#32 _ _ _ _ (by decide) (by decide) (by decide) mag01 rfl
  | ⟨10, _⟩ => decW_neg 10#32 _ _ _ _ (by decide) (by decide) (by decide) mag10 rfl
  | ⟨11, _⟩ => decW_neg 11#32 _ _ _ _ (by decide) (by decide) (by decide) mag11 rfl
  | ⟨12, _⟩ => decW_neg 12#32 _ _ _ _ (by decide) (by decide) (by decide) mag20 rfl
  | ⟨13, _⟩ => decW_neg 13#32 _ _ _ _ (by decide) (by decide) (by decide) mag21 rfl
  | ⟨14, _⟩ => decW_neg 14#32 _ _ _ _ (by decide) (by decide) (by decide) mag30 rfl
  | ⟨15, _⟩ => decW_neg 15#32 _ _ _ _ (by decide) (by decide) (by decide) mag31 rfl
  | ⟨n + 16, h⟩ => absurd h (by omega)

/-- So a word below sixteen decodes to the table's value at it. -/
theorem decW_eq (v : BitVec 32) (h : v.toNat < 16) : decW v = ((Cert.Spec.lutR ⟨v.toNat, h⟩ : ℝ) : EReal) := by
  have := decW_tab ⟨v.toNat, h⟩
  rwa [show BitVec.ofNat 32 (⟨v.toNat, h⟩ : Fin 16).val = v from by simp] at this

/-- The low nibble's decoding, -/
theorem decW_lo (w : BitVec 32) :
    decW (IntOp.andi w 15#32) = ((Cert.Spec.lutR ⟨(Cert.Spec.loNib w).toNat, Cert.Spec.loNib_lt w⟩ : ℝ) : EReal) :=
  decW_eq (IntOp.andi w 15#32) (Cert.Spec.and15_lt w)

/-- and the high nibble's: the shift by four is the arithmetic one. -/
theorem decW_hi (w : BitVec 32) :
    decW (IntOp.andi (IntOp.shrsi .vector w 4#32) 15#32) = ((Cert.Spec.lutR ⟨(Cert.Spec.hiNib w).toNat, Cert.Spec.hiNib_lt w⟩ : ℝ) : EReal) := by
  have hsh : IntOp.shrsi .vector w 4#32 = w.sshiftRight' 4#32 := by unfold IntOp.shrsi; rw [if_pos (by decide)]
  rw [hsh]
  exact decW_eq (IntOp.andi (w.sshiftRight' 4#32) 15#32) (Cert.Spec.and15_lt _)

/-! ## From blocks to the arrays -/

/-- The printed index maps, decided over the grid: every window's block at a point is the point's band of rows, all columns. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- An index of the first output array is in a point's block iff each coordinate is in the block's range on its axis. -/
theorem mem_blk0_2 (t : Fin cfg0.N) (i : Cert.Spec.SP.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v8_0).slice (win0_2.rect t)).set ↔ _
  rw [View.set_slice_whole, Rect.mem_set_unit]
  exact Iff.rfl

/-- The same for the second output array. -/
theorem mem_blk0_3 (t : Fin cfg0.N) (i : Cert.Spec.SP.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v8_1).slice (win0_3.rect t)).set ↔ _
  rw [View.set_slice_whole, Rect.mem_set_unit]
  exact Iff.rfl

/-- Row r lies in the band of point r / 512: the first output's blocks cover its array. -/
theorem cover0_2 (i : Cert.Spec.SP.Idx) : ∃ t : Fin cfg0.N, (cfg0.win 2).flush t = true ∧ i ∈ ((cfg0.win 2).blk t).view.set := by
  have hi0 : (i 0).val < 4096 := (i 0).isLt
  have hi1 : (i 1).val < 2048 := (i 1).isLt
  have hN : cfg0.N = 8 := N_0
  refine ⟨⟨(i 0).val / 512, by rw [hN]; omega⟩, flush0_2 _, ?_⟩
  rw [mem_blk0_2]
  obtain ⟨-, -, -, -, e4, e5, -, -⟩ := idx_facts0 ⟨(i 0).val / 512, by rw [hN]; omega⟩
  intro a
  match a with
  | ⟨0, _⟩ =>
    show win0_2.index _ (0 : Fin 2) * 512 ≤ (i 0).val ∧ (i 0).val < win0_2.index _ (0 : Fin 2) * 512 + 512
    rw [e4]; show (i 0).val / 512 * 512 ≤ (i 0).val ∧ (i 0).val < (i 0).val / 512 * 512 + 512; omega
  | ⟨1, _⟩ =>
    show win0_2.index _ (1 : Fin 2) * 2048 ≤ (i 1).val ∧ (i 1).val < win0_2.index _ (1 : Fin 2) * 2048 + 2048
    rw [e5]; omega

/-- The second output's blocks cover its array likewise. -/
theorem cover0_3 (i : Cert.Spec.SP.Idx) : ∃ t : Fin cfg0.N, (cfg0.win 3).flush t = true ∧ i ∈ ((cfg0.win 3).blk t).view.set := by
  have hi0 : (i 0).val < 4096 := (i 0).isLt
  have hi1 : (i 1).val < 2048 := (i 1).isLt
  have hN : cfg0.N = 8 := N_0
  refine ⟨⟨(i 0).val / 512, by rw [hN]; omega⟩, flush0_3 _, ?_⟩
  rw [mem_blk0_3]
  obtain ⟨-, -, -, -, -, -, e6, e7⟩ := idx_facts0 ⟨(i 0).val / 512, by rw [hN]; omega⟩
  intro a
  match a with
  | ⟨0, _⟩ =>
    show win0_3.index _ (0 : Fin 2) * 512 ≤ (i 0).val ∧ (i 0).val < win0_3.index _ (0 : Fin 2) * 512 + 512
    rw [e6]; show (i 0).val / 512 * 512 ≤ (i 0).val ∧ (i 0).val < (i 0).val / 512 * 512 + 512; omega
  | ⟨1, _⟩ =>
    show win0_3.index _ (1 : Fin 2) * 2048 ≤ (i 1).val ∧ (i 1).val < win0_3.index _ (1 : Fin 2) * 2048 + 2048
    rw [e7]; omega

section Arrays
variable (V : (c : Dev nD) → (b : Ref sig .tc) → Buf (Elt Ideal) ((c : Thread nD τ).loc b))

/-- An input block's entry is its array's entry where the output's block says: the three windows move together. -/
theorem emb0_eq2 (t : Fin cfg0.N) (j : S512x2048.Idx) : ((cfg0.win 0).blk t).view.emb j = ((cfg0.win 2).blk t).view.emb j := by
  obtain ⟨e0, e1, e2, e3, e4, e5, e6, e7⟩ := idx_facts0 t
  funext a; apply Fin.ext
  match a with
  | ⟨0, _⟩ => show win0_0.index t (0 : Fin 2) * 512 + 1 * (j 0).val = win0_2.index t (0 : Fin 2) * 512 + 1 * (j 0).val; omega
  | ⟨1, _⟩ => show win0_0.index t (1 : Fin 2) * 2048 + 1 * (j 1).val = win0_2.index t (1 : Fin 2) * 2048 + 1 * (j 1).val; omega
theorem emb1_eq2 (t : Fin cfg0.N) (j : S512x2048.Idx) : ((cfg0.win 1).blk t).view.emb j = ((cfg0.win 2).blk t).view.emb j := by
  obtain ⟨e0, e1, e2, e3, e4, e5, e6, e7⟩ := idx_facts0 t
  funext a; apply Fin.ext
  match a with
  | ⟨0, _⟩ => show win0_1.index t (0 : Fin 2) * 512 + 1 * (j 0).val = win0_2.index t (0 : Fin 2) * 512 + 1 * (j 0).val; omega
  | ⟨1, _⟩ => show win0_1.index t (1 : Fin 2) * 2048 + 1 * (j 1).val = win0_2.index t (1 : Fin 2) * 2048 + 1 * (j 1).val; omega
theorem emb0_eq3 (t : Fin cfg0.N) (j : S512x2048.Idx) : ((cfg0.win 0).blk t).view.emb j = ((cfg0.win 3).blk t).view.emb j := by
  obtain ⟨e0, e1, e2, e3, e4, e5, e6, e7⟩ := idx_facts0 t
  funext a; apply Fin.ext
  match a with
  | ⟨0, _⟩ => show win0_0.index t (0 : Fin 2) * 512 + 1 * (j 0).val = win0_3.index t (0 : Fin 2) * 512 + 1 * (j 0).val; omega
  | ⟨1, _⟩ => show win0_0.index t (1 : Fin 2) * 2048 + 1 * (j 1).val = win0_3.index t (1 : Fin 2) * 2048 + 1 * (j 1).val; omega
theorem emb1_eq3 (t : Fin cfg0.N) (j : S512x2048.Idx) : ((cfg0.win 1).blk t).view.emb j = ((cfg0.win 3).blk t).view.emb j := by
  obtain ⟨e0, e1, e2, e3, e4, e5, e6, e7⟩ := idx_facts0 t
  funext a; apply Fin.ext
  match a with
  | ⟨0, _⟩ => show win0_1.index t (0 : Fin 2) * 512 + 1 * (j 0).val = win0_3.index t (0 : Fin 2) * 512 + 1 * (j 0).val; omega
  | ⟨1, _⟩ => show win0_1.index t (1 : Fin 2) * 2048 + 1 * (j 1).val = win0_3.index t (1 : Fin 2) * 2048 + 1 * (j 1).val; omega

/-- What a point writes back to the first output is its block of the even-position plane of the entry arrays. -/
theorem flushed0_2_eq (c : Dev nD) (t : Fin cfg0.N) :
    (dat0 (F := Ideal) V c).flushed 2 t = ((cfg0.win 2).blk t).view.read (Elt Ideal) (Cert.Spec.loArr (V c main_arg1) (V c main_v7)) := by
  show (cfg0.win 2).cut (grid0.coords t) ((dat0 (F := Ideal) V c).after 2 t) = _
  rw [after0_2]
  funext j
  show loBlk (iblk0 V c 0 t) (iblk0 V c 1 t) j = Cert.Spec.loArr (V c main_arg1) (V c main_v7) (((cfg0.win 2).blk t).view.emb j)
  rw [loBlk_apply]
  show decW (IntOp.andi (V c main_arg1 (((cfg0.win 0).blk t).view.emb j)) 15#32) * V c main_v7 (((cfg0.win 1).blk t).view.emb j)
    = Cert.Spec.loArr (V c main_arg1) (V c main_v7) (((cfg0.win 2).blk t).view.emb j)
  rw [emb0_eq2, emb1_eq2, decW_lo]
  rfl

/-- What a point writes back to the second output is its block of the odd-position plane. -/
theorem flushed0_3_eq (c : Dev nD) (t : Fin cfg0.N) :
    (dat0 (F := Ideal) V c).flushed 3 t = ((cfg0.win 3).blk t).view.read (Elt Ideal) (Cert.Spec.hiArr (V c main_arg1) (V c main_v7)) := by
  show (cfg0.win 3).cut (grid0.coords t) ((dat0 (F := Ideal) V c).after 3 t) = _
  rw [after0_3]
  funext j
  show hiBlk (iblk0 V c 0 t) (iblk0 V c 1 t) j = Cert.Spec.hiArr (V c main_arg1) (V c main_v7) (((cfg0.win 3).blk t).view.emb j)
  rw [hiBlk_apply]
  show decW (IntOp.andi (IntOp.shrsi .vector (V c main_arg1 (((cfg0.win 0).blk t).view.emb j)) 4#32) 15#32) * V c main_v7 (((cfg0.win 1).blk t).view.emb j)
    = Cert.Spec.hiArr (V c main_arg1) (V c main_v7) (((cfg0.win 3).blk t).view.emb j)
  rw [emb0_eq3, emb1_eq3, decW_hi]
  rfl

end Arrays

/-- The even-position plane region 0 leaves. -/
theorem final0_2 (V : (c : Dev nD) → (b : Ref sig .tc) → Buf (Elt Ideal) ((c : Thread nD τ).loc b)) (c : Dev nD) :
    ((dat0 (F := Ideal) V c).arrAt 2 cfg0.N : Cert.Spec.SP.Idx → EReal)
      = Cert.Spec.loArr (V c main_arg1) (V c main_v7) :=
  (dat0 (F := Ideal) V c).arrAt_eq_of_cover 2 (Cert.Spec.loArr (V c main_arg1) (V c main_v7)) (fun t _ => flushed0_2_eq V c t) cover0_2

/-- The odd-position plane region 0 leaves. -/
theorem final0_3 (V : (c : Dev nD) → (b : Ref sig .tc) → Buf (Elt Ideal) ((c : Thread nD τ).loc b)) (c : Dev nD) :
    ((dat0 (F := Ideal) V c).arrAt 3 cfg0.N : Cert.Spec.SP.Idx → EReal)
      = Cert.Spec.hiArr (V c main_arg1) (V c main_v7) :=
  (dat0 (F := Ideal) V c).arrAt_eq_of_cover 3 (Cert.Spec.hiArr (V c main_arg1) (V c main_v7)) (fun t _ => flushed0_3_eq V c t) cover0_3

end Cert.KernelIdeal.Hand

end
-- ==== Proof.Val1.lean ====
/-
  Region 1's output array after the region, at the extended reals, as one whole-array function of the arrays the
  region was entered with: each output block is written back once, at the second-half point of its (row band, column
  band) pair, holding the two half products accumulated from zero plus the bias row; the two half sums over 2048
  positions join into the sum over all 4096.
-/
import proofs.«410896_j20486994002773_1_alg».proof.Proof.Reg1
import proofs.«410896_j20486994002773_1_alg».proof.Proof.Arrays
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-! ## The product's operand indices -/

/-! Both operands contract their second axis; the result's axes are the operands' first axes. At result index `j` and
contraction position `k` the left operand is read at `(j 0, k)` and the right at `(j 1, k)`. -/

theorem lhs_mm_0 (j : S1024x1024.Idx) (k : dot_S1024x2048_S1024x2048_S1024x1024_1_1_0_0_n_n.contr.Idx) :
    (dot_S1024x2048_S1024x2048_S1024x1024_1_1_0_0_n_n.lhsIdx j k 0).val = (j 0).val := by
  unfold DotDims.lhsIdx
  rw [dif_neg (show ¬(0 : Fin S1024x2048.rank) ∈ dot_S1024x2048_S1024x2048_S1024x1024_1_1_0_0_n_n.lhsBatch by decide),
    dif_pos (show (0 : Fin S1024x2048.rank) ∈ dot_S1024x2048_S1024x2048_S1024x1024_1_1_0_0_n_n.lhsNonContracting by decide)]
  rfl
theorem lhs_mm_1 (j : S1024x1024.Idx) (k : dot_S1024x2048_S1024x2048_S1024x1024_1_1_0_0_n_n.contr.Idx) :
    (dot_S1024x2048_S1024x2048_S1024x1024_1_1_0_0_n_n.lhsIdx j k 1).val = (k ⟨0, by decide⟩).val :=
  dot_S1024x2048_S1024x2048_S1024x1024_1_1_0_0_n_n.lhsIdx_val_of_single rfl j k
theorem rhs_mm_0 (j : S1024x1024.Idx) (k : dot_S1024x2048_S1024x2048_S1024x1024_1_1_0_0_n_n.contr.Idx) :
    (dot_S1024x2048_S1024x2048_S1024x1024_1_1_0_0_n_n.rhsIdx j k 0).val = (j 1).val := by
  unfold DotDims.rhsIdx
  rw [dif_neg (show ¬(0 : Fin S1024x2048.rank) ∈ dot_S1024x2048_S1024x2048_S1024x1024_1_1_0_0_n_n.rhsBatch by decide),
    dif_pos (show (0 : Fin S1024x2048.rank) ∈ dot_S1024x2048_S1024x2048_S1024x1024_1_1_0_0_n_n.rhsNonContracting by decide)]
  rfl
theorem rhs_mm_1 (j : S1024x1024.Idx) (k : dot_S1024x2048_S1024x2048_S1024x1024_1_1_0_0_n_n.contr.Idx) :
    (dot_S1024x2048_S1024x2048_S1024x1024_1_1_0_0_n_n.rhsIdx j k 1).val = (k ⟨0, by decide⟩).val :=
  dot_S1024x2048_S1024x2048_S1024x1024_1_1_0_0_n_n.rhsIdx_val_of_single rfl j k

/-! ## The payloads at an index -/

/-- The half product into the zero accumulator, at (p, q): row p of the activations' block against row q of the weights'. -/
theorem mm_at (x : FVec Ideal S1024x2048 .f32) (w : FVec Ideal S1024x2048 .bf16) (p q : Fin 1024) :
    matmul dot_S1024x2048_S1024x2048_S1024x1024_1_1_0_0_n_n none (truncf .bf16 x bitsLt_bf16_f32)
        (shapeCast S1024x2048 w shapeCasts_S1024x2048_S1024x2048) (constant S1024x1024 .f32 0x00000000#32) (ix2 p q)
      = ∑ k : Fin 2048, x (ix2 p k) * w (ix2 q k) := by
  simp only [matmul]
  rw [Ideal.matmul_constant_zero_apply, shapeCast_self,
    ← Equiv.sum_comp (contrEquiv1 dot_S1024x2048_S1024x2048_S1024x1024_1_1_0_0_n_n 2048 rfl rfl).symm]
  refine Finset.sum_congr rfl fun k _ => ?_
  rw [truncf_apply]
  have hl : dot_S1024x2048_S1024x2048_S1024x1024_1_1_0_0_n_n.lhsIdx (ix2 p q)
      ((contrEquiv1 dot_S1024x2048_S1024x2048_S1024x1024_1_1_0_0_n_n 2048 rfl rfl).symm k) = ix2 p k := by
    funext a; apply Fin.ext
    match a with
    | ⟨0, _⟩ => exact lhs_mm_0 _ _
    | ⟨1, _⟩ => exact (lhs_mm_1 _ _).trans (contrEquiv1_symm_val _ 2048 rfl rfl k)
  have hr : dot_S1024x2048_S1024x2048_S1024x1024_1_1_0_0_n_n.rhsIdx (ix2 p q)
      ((contrEquiv1 dot_S1024x2048_S1024x2048_S1024x1024_1_1_0_0_n_n 2048 rfl rfl).symm k) = ix2 q k := by
    funext a; apply Fin.ext
    match a with
    | ⟨0, _⟩ => exact rhs_mm_0 _ _
    | ⟨1, _⟩ => exact (rhs_mm_1 _ _).trans (contrEquiv1_symm_val _ 2048 rfl rfl k)
  rw [hl, hr]

/-- The zero fill is zero everywhere. -/
theorem pay1_at (y : S1024x1024.Idx) : k1_pay1 (F := Ideal) y = 0 := by
  unfold k1_pay1
  rw [shapeCast_self]
  exact Ideal.ofBits_zero_f32

/-- The accumulation step at (p, q): what was there plus the half product. -/
theorem pay2_at (x : FVec Ideal S1024x2048 .f32) (w : FVec Ideal S1024x2048 .bf16) (prev : FVec Ideal S1024x1024 .f32) (p q : Fin 1024) :
    k1_pay2 x w prev (ix2 p q) = prev (ix2 p q) + ∑ k : Fin 2048, x (ix2 p k) * w (ix2 q k) := by
  unfold k1_pay2
  rw [shapeCast_self, addf_apply, mm_at]

/-- The output block at (p, q): the accumulator plus the bias at column q. -/
theorem pay3_at (b : FVec Ideal S1024 .f32) (acc : FVec Ideal S1024x1024 .f32) (p q : Fin 1024) :
    k1_pay3 b acc (ix2 p q) = acc (ix2 p q) + b (ix1 q) := by
  unfold k1_pay3
  rw [addf_apply, broadcastTo_1b_ab_apply, shapeCast_a_1a_apply]

/-- What a second-half point leaves in the output block, at (p, q): the two half products and the bias. -/
theorem out_at (x0 x1 : FVec Ideal S1024x2048 .f32) (w0 w1 : FVec Ideal S1024x2048 .bf16) (b : FVec Ideal S1024 .f32) (y : S1024x1024.Idx) :
    (outO (F := Ideal) b (accO (F := Ideal) x1 w1 (accE (F := Ideal) x0 w0)) y : EReal)
      = ((∑ k : Fin 2048, x0 (ix2 (y 0) k) * w0 (ix2 (y 1) k)) + ∑ k : Fin 2048, x1 (ix2 (y 0) k) * w1 (ix2 (y 1) k)) + b (ix1 (y 1)) := by
  obtain ⟨p, q, rfl⟩ : ∃ (p q : Fin 1024), y = ix2 p q := ⟨y 0, y 1, eq_ix2 y⟩
  unfold outO accO accE
  rw [pay3_at, pay2_at, pay2_at, pay1_at, zero_add]

/-! ## Joining the two half sums -/

/-- Two half products over 2048 positions each, read where the whole arrays hold them, plus the bias: one entry of
    the product of the whole arrays plus the bias. -/
theorem halves_join (A0 : Cert.Spec.SX.Idx → EReal) (A1 : Cert.Spec.SW.Idx → EReal) (A3 : Cert.Spec.SB.Idx → EReal)
    (x0 x1 w0 w1 : S1024x2048.Idx → EReal) (b : S1024.Idx → EReal) (p q : Fin 1024) (P : Fin 8192) (Q : Fin 4096)
    (hx0 : ∀ k : Fin 2048, x0 (ix2 p k) = A0 (ix2 P (⟨k.val, by omega⟩ : Fin 4096)))
    (hx1 : ∀ k : Fin 2048, x1 (ix2 p k) = A0 (ix2 P (⟨2048 + k.val, by omega⟩ : Fin 4096)))
    (hw0 : ∀ k : Fin 2048, w0 (ix2 q k) = A1 (ix2 Q (⟨k.val, by omega⟩ : Fin 4096)))
    (hw1 : ∀ k : Fin 2048, w1 (ix2 q k) = A1 (ix2 Q (⟨2048 + k.val, by omega⟩ : Fin 4096)))
    (hb : b (ix1 q) = A3 (ix1 Q)) :
    ((∑ k : Fin 2048, x0 (ix2 p k) * w0 (ix2 q k)) + ∑ k : Fin 2048, x1 (ix2 p k) * w1 (ix2 q k)) + b (ix1 q)
      = Cert.Spec.mmAt A0 A1 A3 P Q := by
  unfold Cert.Spec.mmAt
  rw [Cert.Spec.sum_halves, hb]
  simp only [hx0, hx1, hw0, hw1]

/-! ## The windows' blocks, read -/

variable (V : (c : Dev nD) → (b : Ref sig .tc) → Buf (Elt Ideal) ((c : Thread nD τ).loc b))

/-- The printed index maps in closed form, decided over the grid: a point `t` is (row band `t / 8`, column band
    `t / 2 % 4`, half `t % 2`). -/
theorem idx_facts1 : ∀ t : Fin cfg1.N,
    win1_0.index t (0 : Fin 2) = t.val / 8 ∧ win1_0.index t (1 : Fin 2) = t.val % 2
    ∧ win1_1.index t (0 : Fin 2) = t.val / 2 % 4 ∧ win1_1.index t (1 : Fin 2) = t.val % 2
    ∧ win1_2.index t (0 : Fin 1) = t.val / 2 % 4
    ∧ win1_3.index t (0 : Fin 2) = t.val / 8 ∧ win1_3.index t (1 : Fin 2) = t.val / 2 % 4 :=
  (by decide +kernel : ∀ t : Fin grid1.N, _)

/-- The activations' block at a point, at (p, k): the array at (band × 1024 + p, half × 2048 + k). -/
theorem iblk1_0_at (c : Dev nD) (t : Fin cfg1.N) (p : Fin 1024) (k : Fin 2048) (P : Fin 8192) (K : Fin 4096)
    (hP : P.val = t.val / 8 * 1024 + p.val) (hK : K.val = t.val % 2 * 2048 + k.val) :
    (iblk1 V c 0 t : S1024x2048.Idx → EReal) (ix2 p k) = (V c main_arg0 : Cert.Spec.SX.Idx → EReal) (ix2 P K) := by
  obtain ⟨e0, e1, -⟩ := idx_facts1 t
  show V c main_arg0 (((cfg1.win 0).blk t).view.emb (ix2 p k)) = _
  congr 1
  funext a; apply Fin.ext
  match a with
  | ⟨0, _⟩ => show win1_0.index t (0 : Fin 2) * 1024 + 1 * p.val = P.val; omega
  | ⟨1, _⟩ => show win1_0.index t (1 : Fin 2) * 2048 + 1 * k.val = K.val; omega

/-- The weights' block at a point, at (q, k). -/
theorem iblk1_1_at (c : Dev nD) (t : Fin cfg1.N) (q : Fin 1024) (k : Fin 2048) (Q : Fin 4096) (K : Fin 4096)
    (hQ : Q.val = t.val / 2 % 4 * 1024 + q.val) (hK : K.val = t.val % 2 * 2048 + k.val) :
    (iblk1 V c 1 t : S1024x2048.Idx → EReal) (ix2 q k) = (V c main_v12 : Cert.Spec.SW.Idx → EReal) (ix2 Q K) := by
  obtain ⟨-, -, e2, e3, -⟩ := idx_facts1 t
  show V c main_v12 (((cfg1.win 1).blk t).view.emb (ix2 q k)) = _
  congr 1
  funext a; apply Fin.ext
  match a with
  | ⟨0, _⟩ => show win1_1.index t (0 : Fin 2) * 1024 + 1 * q.val = Q.val; omega
  | ⟨1, _⟩ => show win1_1.index t (1 : Fin 2) * 2048 + 1 * k.val = K.val; omega

/-- The bias block at a point, at q. -/
theorem iblk1_2_at (c : Dev nD) (t : Fin cfg1.N) (q : Fin 1024) (Q : Fin 4096)
    (hQ : Q.val = t.val / 2 % 4 * 1024 + q.val) :
    (iblk1 V c 2 t : S1024.Idx → EReal) (ix1 q) = (V c main_arg3 : Cert.Spec.SB.Idx → EReal) (ix1 Q) := by
  obtain ⟨-, -, -, -, e4, -⟩ := idx_facts1 t
  show V c main_arg3 (((cfg1.win 2).blk t).view.emb (ix1 q)) = _
  congr 1
  funext a; apply Fin.ext
  match a with
  | ⟨0, _⟩ => show win1_2.index t (0 : Fin 1) * 1024 + 1 * q.val = Q.val; omega

/-! ## What a second-half point writes back -/

/-- The point before an odd point is one less. -/
theorem prevPt_val (t : Fin cfg1.N) : (prevPt t).val = t.val - 1 := rfl

/-- WHAT AN ODD POINT WRITES BACK is its block of the product of the whole arrays plus the bias. -/
theorem flushed1_3_eq (c : Dev nD) (t : Fin cfg1.N) (hf : (cfg1.win 3).flush t = true) :
    (dat1 (F := Ideal) V c).flushed 3 t
      = ((cfg1.win 3).blk t).view.read (Elt Ideal) (Cert.Spec.mmArr (V c main_arg0) (V c main_v12) (V c main_arg3)) := by
  have hodd : t.val % 2 = 1 := (flush1_3 t).mp hf
  have hN : t.val < 64 := Nat.lt_of_lt_of_eq t.isLt N_1
  have hpv : (prevPt t).val = t.val - 1 := prevPt_val t
  obtain ⟨-, -, -, -, -, e5, e6⟩ := idx_facts1 t
  show (cfg1.win 3).cut (grid1.coords t) ((dat1 (F := Ideal) V c).after 3 t) = _
  rw [after1_3 V c t hodd]
  funext y
  have hy0 : (y 0).val < 1024 := (y 0).isLt
  have hy1 : (y 1).val < 1024 := (y 1).isLt
  show (outO (F := Ideal) (iblk1 V c 2 t) (accO (F := Ideal) (iblk1 V c 0 t) (iblk1 V c 1 t)
      (accE (F := Ideal) (iblk1 V c 0 (prevPt t)) (iblk1 V c 1 (prevPt t)))) y : EReal)
    = Cert.Spec.mmAt (V c main_arg0) (V c main_v12) (V c main_arg3)
        ((((cfg1.win 3).blk t).view.emb y) 0) ((((cfg1.win 3).blk t).view.emb y) 1)
  have hP : ((((cfg1.win 3).blk t).view.emb y) 0).val = t.val / 8 * 1024 + (y 0).val := by
    show win1_3.index t (0 : Fin 2) * 1024 + 1 * (y 0).val = _; omega
  have hQ : ((((cfg1.win 3).blk t).view.emb y) 1).val = t.val / 2 % 4 * 1024 + (y 1).val := by
    show win1_3.index t (1 : Fin 2) * 1024 + 1 * (y 1).val = _; omega
  refine (out_at _ _ _ _ _ y).trans ?_
  refine halves_join _ _ _ _ _ _ _ _ (y 0) (y 1) _ _ (fun k => ?_) (fun k => ?_) (fun k => ?_) (fun k => ?_) ?_
  · exact iblk1_0_at V c (prevPt t) (y 0) k _ _ (by rw [hP, hpv]; omega) (by show k.val = _; rw [hpv]; omega)
  · exact iblk1_0_at V c t (y 0) k _ _ hP (by show 2048 + k.val = _; omega)
  · exact iblk1_1_at V c (prevPt t) (y 1) k _ _ (by rw [hQ, hpv]; omega) (by show k.val = _; rw [hpv]; omega)
  · exact iblk1_1_at V c t (y 1) k _ _ hQ (by show 2048 + k.val = _; omega)
  · exact iblk1_2_at V c t (y 1) _ hQ

/-! ## The cover -/

/-- An index of the array is in point `t`'s block iff each coordinate is in the block's range on its axis. -/
theorem mem_blk1_3 (t : Fin cfg1.N) (i : S8192x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v13).slice (win1_3.rect t)).set ↔ _
  rw [View.set_slice_whole, Rect.mem_set_unit]
  exact Iff.rfl

/-- Every index of the output lies in the block of a writing point: the second-half point of its row band and column band. -/
theorem cover1_3 (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  refine ⟨⟨((i 0).val / 1024 * 4 + (i 1).val / 1024) * 2 + 1, by rw [show cfg1.N = 64 from N_1]; omega⟩, ?_, ?_⟩
  · exact (flush1_3 _).mpr (by show (((i 0).val / 1024 * 4 + (i 1).val / 1024) * 2 + 1) % 2 = 1; omega)
  · rw [mem_blk1_3]
    obtain ⟨-, -, -, -, -, e5, e6⟩ := idx_facts1 ⟨((i 0).val / 1024 * 4 + (i 1).val / 1024) * 2 + 1, by rw [show cfg1.N = 64 from N_1]; omega⟩
    have v : (⟨((i 0).val / 1024 * 4 + (i 1).val / 1024) * 2 + 1, by rw [show cfg1.N = 64 from N_1]; omega⟩ : Fin cfg1.N).val
        = ((i 0).val / 1024 * 4 + (i 1).val / 1024) * 2 + 1 := rfl
    rw [v] at e5 e6
    intro a
    match a with
    | ⟨0, _⟩ =>
      show win1_3.index _ (0 : Fin 2) * 1024 ≤ (i 0).val ∧ (i 0).val < win1_3.index _ (0 : Fin 2) * 1024 + 1024
      rw [e5]; omega
    | ⟨1, _⟩ =>
      show win1_3.index _ (1 : Fin 2) * 1024 ≤ (i 1).val ∧ (i 1).val < win1_3.index _ (1 : Fin 2) * 1024 + 1024
      rw [e6]; omega

/-- The output array region 1 leaves: `x · wᵀ + bias` of the three arrays it staged. -/
theorem final1_3 (V : (c : Dev nD) → (b : Ref sig .tc) → Buf (Elt Ideal) ((c : Thread nD τ).loc b)) (c : Dev nD) :
    ((dat1 (F := Ideal) V c).arrAt 3 cfg1.N : Cert.Spec.SX.Idx → EReal)
      = Cert.Spec.mmArr (V c main_arg0) (V c main_v12) (V c main_arg3) :=
  (dat1 (F := Ideal) V c).arrAt_eq_of_cover 3 (Cert.Spec.mmArr (V c main_arg0) (V c main_v12) (V c main_arg3))
    (fun t hf => flushed1_3_eq V c t hf) cover1_3

end Cert.KernelIdeal.Hand

end
-- ==== Proof.KernelG.lean ====
/-
  The kernel's result is the specification: region 1 leaves `x · wᵀ + bias` of the dense weights it staged; those are
  the two planes region 0 left, interleaved by the host; each plane is its nibble's table value times the per-word
  scale the host computed from the block exponents. No hypothesis is needed on this side: the kernel subtracts the bias
  of the exponent after converting it, which is exact.
-/
import proofs.«410896_j20486994002773_1_alg».proof.Proof.Host
import proofs.«410896_j20486994002773_1_alg».proof.Proof.Val0
import proofs.«410896_j20486994002773_1_alg».proof.Proof.Val1

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- What region 1's write-backs leave in the result array is `G` of the four arguments. -/
theorem kernel_value (c : Dev nD) :
    ((dat1 (F := Ideal) (V3 m) c).arrAt 3 cfg1.N : Cert.Spec.SX.Idx → EReal)
      = Cert.Spec.G (m ((c : Thread nD τ).loc main_arg0)) (m ((c : Thread nD τ).loc main_arg1))
          (m ((c : Thread nD τ).loc main_arg2)) (m ((c : Thread nD τ).loc main_arg3)) := by
  rw [final1_3 (V3 m) c, V3_arg0 m c, V3_arg3 m c, v12_eq m c, V2_v8_0 m c, V2_v8_1 m c,
    final0_2 (V1 m) c, final0_3 (V1 m) c, V1_arg1 m c, v7_eq m c]
  exact Cert.Spec.mmArr_planes _ _ _ _

/-- Every weakly fair execution of the idealized kernel ends with the result at `G` of the arguments and the
    arguments unchanged. -/
theorem kernel_run : θ_run (defs (F := Ideal)) (onTc (τ := τ) (main (F := Ideal))) ⟨m, fun _ => 0, ρ⟩ (fun r => ∀ c : Dev nD,
      r.2.mem ((c.tc : Thread nD τ).loc main_v13)
        = Cert.Spec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun _ h c => ⟨(h c).1.trans (kernel_value m c), (h c).2⟩) (run_main m ρ)

end Cert.KernelIdeal.Hand

end
-- ==== Proof.RefRun.lean ====
/-
  The reference program's run.

  The reference is a straight line of forty host operations with no kernel. Its list of operations is restated
  here, the program is that list run in order, and every weakly fair execution ends with the result buffer at
  the operations' composed pure term of the four arguments, the arguments unchanged. The composed term is given
  in named stages: the two nibbles of each packed word, their interleaving into one code per weight, the
  table lookup, the block scale, the scaled weight, and the product with the activations plus the bias.
-/
import proofs.«410896_j20486994002773_1_alg».proof.ReferenceIdeal
import Idealize.ShloMosaic.Lib.StableHlo.Run
import Idealize.ShloMosaic.PureOps.Ideal

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]
variable {F : FTy → Type} [FloatOps F]

/-! ## The stages of the composed term -/

/-- The sixteen-entry table of code values, as the program's constant holds it. -/
def tbl : FVec F S16 .f32 := fun i => FloatOps.ofBits .f32 (lit0 (S16.rowMajor i))

/-- The low nibble of every packed word. -/
def lo (wp : IVec S4096x2048 32) : IVec S4096x2048 32 :=
  andi wp (broadcastInDim S4096x2048 ![] bcast_S_S4096x2048 (constantI S_ 32 15#32))

/-- The nibble above it of every packed word: arithmetic shift by four, then the mask. -/
def hi (wp : IVec S4096x2048 32) : IVec S4096x2048 32 :=
  andi (Host.shrsi wp (broadcastInDim S4096x2048 ![] bcast_S_S4096x2048 (constantI S_ 32 4#32)))
    (broadcastInDim S4096x2048 ![] bcast_S_S4096x2048 (constantI S_ 32 15#32))

/-- The two nibbles side by side on a new last axis. -/
def pair (wp : IVec S4096x2048 32) : IVec S4096x2048x2 32 :=
  concatenate S4096x2048x2 2
    [⟨S4096x2048x1, broadcastInDim S4096x2048x1 ![0, 1] bcast_S4096x2048_S4096x2048x1_0_1 (lo wp)⟩,
     ⟨S4096x2048x1, broadcastInDim S4096x2048x1 ![0, 1] bcast_S4096x2048_S4096x2048x1_0_1 (hi wp)⟩]
    concatenates_S4096x2048x1_S4096x2048x1_S4096x2048x2_d2

/-- One code per weight: the pairs flattened along the row. -/
def codes (wp : IVec S4096x2048 32) : IVec S4096x4096 32 :=
  shapeCast S4096x4096 (pair wp) shapeCasts_S4096x2048x2_S4096x4096

/-- The codes after the wrap of a negative index by sixteen (which never fires: a code is a nibble). -/
def wrapped (wp : IVec S4096x2048 32) : IVec S4096x4096 32 :=
  select (cmpi .slt (codes wp) (broadcastInDim S4096x4096 ![] bcast_S_S4096x4096 (constantI S_ 32 0#32)))
    (addi (codes wp) (broadcastInDim S4096x4096 ![] bcast_S_S4096x4096 (constantI S_ 32 16#32)))
    (codes wp)

/-- Each weight's table entry. -/
def looked (wp : IVec S4096x2048 32) : FVec F S4096x4096 .f32 :=
  Host.gather gather_S16_S4096x4096x1_S4096x4096_n_0_n_n_0_2_1 (tbl (F := F))
    (broadcastInDim S4096x4096x1 ![0, 1] bcast_S4096x4096_S4096x4096x1_0_1 (wrapped wp))

/-- Each block's scale: the exponential of the literal times the exponent word less four. -/
def scale (se : IVec S4096x128 32) : FVec F S4096x128 .f32 :=
  Host.exp (mulf (broadcastInDim S4096x128 ![] bcast_S_S4096x128 (constant S_ .f32 0x3F317218#32))
    (sitofp .f32 (subi se (broadcastInDim S4096x128 ![] bcast_S_S4096x128 (constantI S_ 32 4#32)))))

/-- The dequantized weights: table entry times block scale, block by block. -/
def weights (wp : IVec S4096x2048 32) (se : IVec S4096x128 32) : FVec F S4096x4096 .f32 :=
  shapeCast S4096x4096
    (mulf (shapeCast S4096x128x32 (looked (F := F) wp) shapeCasts_S4096x4096_S4096x128x32)
      (broadcastInDim S4096x128x32 ![0, 1, 2] bcast_S4096x128x1_S4096x128x32_0_1_2
        (broadcastInDim S4096x128x1 ![0, 1] bcast_S4096x128_S4096x128x1_0_1 (scale (F := F) se))))
    shapeCasts_S4096x128x32_S4096x4096

/-- The result: activations against the weights over the shared axis, plus the bias on every row. -/
def out (x : FVec F S8192x4096 .f32) (wp : IVec S4096x2048 32) (se : IVec S4096x128 32) (b : FVec F S4096 .f32) :
    FVec F S8192x4096 .f32 :=
  addf (Host.dotGeneral dot_S8192x4096_S4096x4096_S8192x4096_1_1_0_0_n_n none x (weights (F := F) wp se))
    (broadcastInDim S8192x4096 ![0, 1] bcast_S1x4096_S8192x4096_0_1
      (broadcastInDim S1x4096 ![1] bcast_S4096_S1x4096_1 b))

/-! ## The program as a list of operations -/

/-- The program's forty operations, in order. -/
abbrev ops : List (HloOp τ sig (Elt F)) :=
  [ nullary main_cst (fun i => FloatOps.ofBits .f32 (lit0 (S16.rowMajor i))),
    nullary main_c (constantI S_ 32 15#32),
    unary main_c main_v0 (broadcastInDim S4096x2048 ![] bcast_S_S4096x2048 : (⟨S_, .i32⟩ : BufTy).Contents (Elt F) → (⟨S4096x2048, .i32⟩ : BufTy).Contents (Elt F)),
    binary main_arg1 main_v0 main_v1 (andi : (⟨S4096x2048, .i32⟩ : BufTy).Contents (Elt F) → (⟨S4096x2048, .i32⟩ : BufTy).Contents (Elt F) → (⟨S4096x2048, .i32⟩ : BufTy).Contents (Elt F)),
    nullary main_c_0 (constantI S_ 32 4#32),
    unary main_c_0 main_v2 (broadcastInDim S4096x2048 ![] bcast_S_S4096x2048 : (⟨S_, .i32⟩ : BufTy).Contents (Elt F) → (⟨S4096x2048, .i32⟩ : BufTy).Contents (Elt F)),
    binary main_arg1 main_v2 main_v3 (Host.shrsi : (⟨S4096x2048, .i32⟩ : BufTy).Contents (Elt F) → (⟨S4096x2048, .i32⟩ : BufTy).Contents (Elt F) → (⟨S4096x2048, .i32⟩ : BufTy).Contents (Elt F)),
    nullary main_c_1 (constantI S_ 32 15#32),
    unary main_c_1 main_v4 (broadcastInDim S4096x2048 ![] bcast_S_S4096x2048 : (⟨S_, .i32⟩ : BufTy).Contents (Elt F) → (⟨S4096x2048, .i32⟩ : BufTy).Contents (Elt F)),
    binary main_v3 main_v4 main_v5 (andi : (⟨S4096x2048, .i32⟩ : BufTy).Contents (Elt F) → (⟨S4096x2048, .i32⟩ : BufTy).Contents (Elt F) → (⟨S4096x2048, .i32⟩ : BufTy).Contents (Elt F)),
    unary main_v1 main_v6 (broadcastInDim S4096x2048x1 ![0, 1] bcast_S4096x2048_S4096x2048x1_0_1 : (⟨S4096x2048, .i32⟩ : BufTy).Contents (Elt F) → (⟨S4096x2048x1, .i32⟩ : BufTy).Contents (Elt F)),
    unary main_v5 main_v7 (broadcastInDim S4096x2048x1 ![0, 1] bcast_S4096x2048_S4096x2048x1_0_1 : (⟨S4096x2048, .i32⟩ : BufTy).Contents (Elt F) → (⟨S4096x2048x1, .i32⟩ : BufTy).Contents (Elt F)),
    binary main_v6 main_v7 main_v8 ((fun a b => concatenate S4096x2048x2 2 [⟨S4096x2048x1, a⟩, ⟨S4096x2048x1, b⟩] concatenates_S4096x2048x1_S4096x2048x1_S4096x2048x2_d2) : (⟨S4096x2048x1, .i32⟩ : BufTy).Contents (Elt F) → (⟨S4096x2048x1, .i32⟩ : BufTy).Contents (Elt F) → (⟨S4096x2048x2, .i32⟩ : BufTy).Contents (Elt F)),
    reshape main_v8 main_v9 rfl shapeCasts_S4096x2048x2_S4096x4096,
    nullary main_c_2 (constantI S_ 32 0#32),
    unary main_c_2 main_v10 (broadcastInDim S4096x4096 ![] bcast_S_S4096x4096 : (⟨S_, .i32⟩ : BufTy).Contents (Elt F) → (⟨S4096x4096, .i32⟩ : BufTy).Contents (Elt F)),
    binary main_v9 main_v10 main_v11 (cmpi .slt : (⟨S4096x4096, .i32⟩ : BufTy).Contents (Elt F) → (⟨S4096x4096, .i32⟩ : BufTy).Contents (Elt F) → (⟨S4096x4096, .i1⟩ : BufTy).Contents (Elt F)),
    nullary main_c_3 (constantI S_ 32 16#32),
    unary main_c_3 main_v12 (broadcastInDim S4096x4096 ![] bcast_S_S4096x4096 : (⟨S_, .i32⟩ : BufTy).Contents (Elt F) → (⟨S4096x4096, .i32⟩ : BufTy).Contents (Elt F)),
    binary main_v9 main_v12 main_v13 (addi : (⟨S4096x4096, .i32⟩ : BufTy).Contents (Elt F) → (⟨S4096x4096, .i32⟩ : BufTy).Contents (Elt F) → (⟨S4096x4096, .i32⟩ : BufTy).Contents (Elt F)),
    ternary main_v11 main_v13 main_v9 main_v14 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    unary main_v14 main_v15 (broadcastInDim S4096x4096x1 ![0, 1] bcast_S4096x4096_S4096x4096x1_0_1 : (⟨S4096x4096, .i32⟩ : BufTy).Contents (Elt F) → (⟨S4096x4096x1, .i32⟩ : BufTy).Contents (Elt F)),
    binary main_cst main_v15 main_v16 ((fun x i => Host.gather gather_S16_S4096x4096x1_S4096x4096_n_0_n_n_0_2_1 x i) : (⟨S16, .f32⟩ : BufTy).Contents (Elt F) → (⟨S4096x4096x1, .i32⟩ : BufTy).Contents (Elt F) → (⟨S4096x4096, .f32⟩ : BufTy).Contents (Elt F)),
    nullary main_c_4 (constantI S_ 32 4#32),
    unary main_c_4 main_v17 (broadcastInDim S4096x128 ![] bcast_S_S4096x128 : (⟨S_, .i32⟩ : BufTy).Contents (Elt F) → (⟨S4096x128, .i32⟩ : BufTy).Contents (Elt F)),
    binary main_arg2 main_v17 main_v18 (subi : (⟨S4096x128, .i32⟩ : BufTy).Contents (Elt F) → (⟨S4096x128, .i32⟩ : BufTy).Contents (Elt F) → (⟨S4096x128, .i32⟩ : BufTy).Contents (Elt F)),
    unary main_v18 main_v19 (sitofp .f32 : (⟨S4096x128, .i32⟩ : BufTy).Contents (Elt F) → (⟨S4096x128, .f32⟩ : BufTy).Contents (Elt F)),
    nullary main_cst_5 (constant S_ .f32 0x3F317218#32),
    unary main_cst_5 main_v20 (broadcastInDim S4096x128 ![] bcast_S_S4096x128 : (⟨S_, .f32⟩ : BufTy).Contents (Elt F) → (⟨S4096x128, .f32⟩ : BufTy).Contents (Elt F)),
    binary main_v20 main_v19 main_v21 (mulf : (⟨S4096x128, .f32⟩ : BufTy).Contents (Elt F) → (⟨S4096x128, .f32⟩ : BufTy).Contents (Elt F) → (⟨S4096x128, .f32⟩ : BufTy).Contents (Elt F)),
    unary main_v21 main_v22 (Host.exp : (⟨S4096x128, .f32⟩ : BufTy).Contents (Elt F) → (⟨S4096x128, .f32⟩ : BufTy).Contents (Elt F)),
    reshape main_v16 main_v23 rfl shapeCasts_S4096x4096_S4096x128x32,
    unary main_v22 main_v24 (broadcastInDim S4096x128x1 ![0, 1] bcast_S4096x128_S4096x128x1_0_1 : (⟨S4096x128, .f32⟩ : BufTy).Contents (Elt F) → (⟨S4096x128x1, .f32⟩ : BufTy).Contents (Elt F)),
    unary main_v24 main_v25 (broadcastInDim S4096x128x32 ![0, 1, 2] bcast_S4096x128x1_S4096x128x32_0_1_2 : (⟨S4096x128x1, .f32⟩ : BufTy).Contents (Elt F) → (⟨S4096x128x32, .f32⟩ : BufTy).Contents (Elt F)),
    binary main_v23 main_v25 main_v26 (mulf : (⟨S4096x128x32, .f32⟩ : BufTy).Contents (Elt F) → (⟨S4096x128x32, .f32⟩ : BufTy).Contents (Elt F) → (⟨S4096x128x32, .f32⟩ : BufTy).Contents (Elt F)),
    reshape main_v26 main_v27 rfl shapeCasts_S4096x128x32_S4096x4096,
    binary main_arg0 main_v27 main_v28 ((fun l r => Host.dotGeneral dot_S8192x4096_S4096x4096_S8192x4096_1_1_0_0_n_n none l r) : (⟨S8192x4096, .f32⟩ : BufTy).Contents (Elt F) → (⟨S4096x4096, .f32⟩ : BufTy).Contents (Elt F) → (⟨S8192x4096, .f32⟩ : BufTy).Contents (Elt F)),
    unary main_arg3 main_v29 (broadcastInDim S1x4096 ![1] bcast_S4096_S1x4096_1 : (⟨S4096, .f32⟩ : BufTy).Contents (Elt F) → (⟨S1x4096, .f32⟩ : BufTy).Contents (Elt F)),
    unary main_v29 main_v30 (broadcastInDim S8192x4096 ![0, 1] bcast_S1x4096_S8192x4096_0_1 : (⟨S1x4096, .f32⟩ : BufTy).Contents (Elt F) → (⟨S8192x4096, .f32⟩ : BufTy).Contents (Elt F)),
    binary main_v28 main_v30 main_v31 (addf : (⟨S8192x4096, .f32⟩ : BufTy).Contents (Elt F) → (⟨S8192x4096, .f32⟩ : BufTy).Contents (Elt F) → (⟨S8192x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., nullary_bufs_sub .., unary_bufs_sub .., binary_bufs_sub .., unary_bufs_sub .., reshape_bufs_sub .., unary_bufs_sub .., unary_bufs_sub .., binary_bufs_sub .., reshape_bufs_sub .., binary_bufs_sub .., unary_bufs_sub .., unary_bufs_sub .., binary_bufs_sub ..⟩

/-! ## The run -/

/-- From any memory with zero counters, every weakly fair execution ends with every buffer at the fold of the
    operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-! ## What each buffer of interest holds after the operations -/

set_option maxHeartbeats 1600000 in
/-- The result buffer after the operations: the composed term of the four arguments. -/
theorem after_out (V : Valuation τ sig (Elt F)) :
    after ops V (Proc.devRef .tc main_v31) = out (F := F) (V (Proc.devRef .tc main_arg0)) (V (Proc.devRef .tc main_arg1)) (V (Proc.devRef .tc main_arg2)) (V (Proc.devRef .tc main_arg3)) := by
  after_results <;> rfl

/-- No operation writes the activations. -/
theorem after_arg0 (V : Valuation τ sig (Elt F)) : after ops V (Proc.devRef .tc main_arg0) = V (Proc.devRef .tc main_arg0) := by
  after_results <;> rfl
/-- No operation writes the packed codes. -/
theorem after_arg1 (V : Valuation τ sig (Elt F)) : after ops V (Proc.devRef .tc main_arg1) = V (Proc.devRef .tc main_arg1) := by
  after_results <;> rfl
/-- No operation writes the block exponents. -/
theorem after_arg2 (V : Valuation τ sig (Elt F)) : after ops V (Proc.devRef .tc main_arg2) = V (Proc.devRef .tc main_arg2) := by
  after_results <;> rfl
/-- No operation writes the bias. -/
theorem after_arg3 (V : Valuation τ sig (Elt F)) : after ops V (Proc.devRef .tc main_arg3) = V (Proc.devRef .tc main_arg3) := by
  after_results <;> rfl

/-- From any memory with zero counters, every weakly fair execution ends with the result at the composed term of
    the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = out (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v31).trans (after_out _),
      (h c main_arg0).trans (after_arg0 _),
      (h c main_arg1).trans (after_arg1 _),
      (h c main_arg2).trans (after_arg2 _),
      (h c main_arg3).trans (after_arg3 _)⟩)
    (run_after m ρ)

/-! ## The exported frame -/

/-- The same run with the result dropped: no hypothesis. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run (F := Ideal) m g)

end Cert.ReferenceIdeal.Hand

end
-- ==== Proof.RefVal.lean ====
/-
  The reference program's result is the specification's.

  The composed term of the reference's forty operations is read at an index, stage by stage, at the ideal values:
  a packed word's two nibbles, the code of weight `(o, i)` as nibble `i % 2` of word `(o, i / 2)`, the table entry
  of a code (a nibble is never negative, so the wrap by sixteen and the clamp leave it), a block's scale as the
  exponential of the literal times the exponent word less four (the wrapping subtraction is the integers' for a word
  in `[0, 255]`), the weight `(o, 32 g + r)` as table entry times the scale of block `g`, and the result as the sum
  over the shared axis of activation times weight, plus the bias of the column.
-/
import proofs.«410896_j20486994002773_1_alg».proof.Proof.RefRun
import proofs.«410896_j20486994002773_1_alg».proof.Proof.Spec
import Idealize.ShloMosaic.Lib.ValueIdx
import Idealize.ShloMosaic.Lib.Pipeline.Value
import Idealize.ShloMosaic.PureOps.Ideal.Laws

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

open Idealize.ShloMosaic.ValueIdx
open scoped BigOperators

/-! ## The table -/

/-- Each of the sixteen table words denotes its code's value (the word of negative zero denotes zero). -/
theorem lit_val (k : Fin 16) : Ideal.ofBits .f32 (lit0 k) = ((Cert.Spec.lutR k : ℝ) : EReal) := by
  fin_cases k <;> simp [Ideal.ofBits, Ideal.ieee, lit0, Cert.Spec.lutR, -EReal.coe_mul] <;> norm_num

/-- The table at entry `k` is the code's value. -/
theorem tbl_apply (k : Fin 16) : tbl (F := Ideal) (ix1 k) = ((Cert.Spec.lutR k : ℝ) : EReal) := by
  have e : S16.rowMajor (ix1 k) = k := Fin.ext (by rw [Shape.rowMajor_val_one])
  show Ideal.ofBits .f32 (lit0 (S16.rowMajor (ix1 k))) = _
  rw [e]
  exact lit_val k

/-- The low-nibble stage at an index is the specification's low nibble of the word there. -/
theorem lo_apply (wp : IVec S4096x2048 32) (i : S4096x2048.Idx) : lo wp i = Cert.Spec.loNib (wp i) := rfl

/-- The high-nibble stage at an index is the specification's high nibble of the word there: a shift by four is in range. -/
theorem hi_apply (wp : IVec S4096x2048 32) (i : S4096x2048.Idx) : hi wp i = Cert.Spec.hiNib (wp i) := by
  show IntOp.andi (IntOp.shrsi .host (wp i) 4#32) 15#32 = _
  unfold IntOp.shrsi
  rw [if_pos (by decide)]
  rfl

/-- The pair's first slot is the low nibble. -/
theorem pair_zero (wp : IVec S4096x2048 32) (o : Fin 4096) (j : Fin 2048) :
    pair wp (ix3 o j (0 : Fin 2)) = Cert.Spec.loNib (wp (ix2 o j)) := by
  unfold pair
  refine (concatenate_pair_apply_left (t := S4096x2048x2) (s₁ := S4096x2048x1) (s₂ := S4096x2048x1) (2 : Fin 3) _ _ _ (ix3 o j (0 : Fin 2)) rfl (ix3 o j (0 : Fin 1))
    (fun b => match b with | ⟨0, _⟩ => rfl | ⟨1, _⟩ => rfl | ⟨2, _⟩ => rfl)).trans ?_
  refine (broadcastInDim_apply _ _ _ _ (ix2 o j) (fun a => match a with | ⟨0, _⟩ => rfl | ⟨1, _⟩ => rfl)).trans ?_
  exact lo_apply wp _

/-- The pair's second slot is the nibble above. -/
theorem pair_one (wp : IVec S4096x2048 32) (o : Fin 4096) (j : Fin 2048) :
    pair wp (ix3 o j (1 : Fin 2)) = Cert.Spec.hiNib (wp (ix2 o j)) := by
  unfold pair
  refine (concatenate_pair_apply_right (t := S4096x2048x2) (s₁ := S4096x2048x1) (s₂ := S4096x2048x1) (2 : Fin 3) _ _ _ (ix3 o j (1 : Fin 2)) rfl rfl (ix3 o j (0 : Fin 1))
    (fun b => match b with | ⟨0, _⟩ => fun _ => rfl | ⟨1, _⟩ => fun _ => rfl | ⟨2, _⟩ => fun h => absurd rfl h) rfl).trans ?_
  refine (broadcastInDim_apply _ _ _ _ (ix2 o j) (fun a => match a with | ⟨0, _⟩ => rfl | ⟨1, _⟩ => rfl)).trans ?_
  exact hi_apply wp _

/-- A weight's code word is slot `i % 2` of pair `i / 2` of its row. -/
theorem codes_apply (wp : IVec S4096x2048 32) (o i : Fin 4096) :
    codes wp (ix2 o i) = pair wp (ix3 o (⟨i.val / 2, by omega⟩ : Fin 2048) (⟨i.val % 2, by omega⟩ : Fin 2)) := by
  unfold codes
  refine shapeCast_apply _ _ _ _ ?_
  rw [Shape.rowMajor_val_three, Shape.rowMajor_val_two]
  show (o.val * 2048 + i.val / 2) * 2 + i.val % 2 = o.val * 4096 + i.val
  omega

/-- A weight's code word, as a number, is its code. -/
theorem codes_toNat (wp : IVec S4096x2048 32) (o i : Fin 4096) :
    (codes wp (ix2 o i)).toNat = (Cert.Spec.code wp o i).val := by
  rw [codes_apply]
  unfold Cert.Spec.code
  rcases Nat.mod_two_eq_zero_or_one i.val with h | h
  · rw [if_pos h]
    have e : (⟨i.val % 2, by omega⟩ : Fin 2) = 0 := Fin.ext h
    rw [e, pair_zero]
  · rw [if_neg (by omega)]
    have e : (⟨i.val % 2, by omega⟩ : Fin 2) = 1 := Fin.ext h
    rw [e, pair_one]

/-- A word below sixteen is not negative. -/
theorem slt_zero_of_lt (x : BitVec 32) (h : x.toNat < 16) : x.slt 0#32 = false := by
  rw [BitVec.slt_zero_eq_msb, BitVec.msb_eq_false_iff_two_mul_lt]
  omega

/-- A word below sixteen read signed is itself. -/
theorem toInt_toNat_of_lt (x : BitVec 32) (h : x.toNat < 16) : x.toInt.toNat = x.toNat := by
  rw [BitVec.toInt_eq_toNat_of_lt (by omega)]
  exact Int.toNat_natCast _

/-- A code word is below sixteen. -/
theorem codes_lt (wp : IVec S4096x2048 32) (o i : Fin 4096) : (codes wp (ix2 o i)).toNat < 16 := by
  rw [codes_toNat]; exact (Cert.Spec.code wp o i).isLt

/-- The wrap of a negative index never fires. -/
theorem wrapped_apply (wp : IVec S4096x2048 32) (o i : Fin 4096) : wrapped wp (ix2 o i) = codes wp (ix2 o i) := by
  show Scalar.select (BitVec.ofBool ((codes wp (ix2 o i)).slt 0#32)) _ _ = _
  rw [slt_zero_of_lt _ (codes_lt wp o i)]
  exact select_zero _ _

/-- Each weight's table entry is its code's value. -/
theorem looked_apply (wp : IVec S4096x2048 32) (o i : Fin 4096) :
    looked (F := Ideal) wp (ix2 o i) = ((Cert.Spec.lutR (Cert.Spec.code wp o i) : ℝ) : EReal) := by
  have e : broadcastInDim S4096x4096x1 ![0, 1] bcast_S4096x4096_S4096x4096x1_0_1 (wrapped wp) (takeIdx (ix2 o i)) = codes wp (ix2 o i) :=
    (broadcastInDim_apply _ _ _ _ (ix2 o i) (fun a => match a with | ⟨0, _⟩ => rfl | ⟨1, _⟩ => rfl)).trans (wrapped_apply wp o i)
  refine (gather_take_apply (N := 16) (R := 4096) (C := 4096) (by decide) gather_S16_S4096x4096x1_S4096x4096_n_0_n_n_0_2_1_wf
    (tbl (F := Ideal)) _ (ix2 o i)).trans ?_
  refine (congrArg (fun k : Fin 16 => tbl (F := Ideal) (ix1 k)) (Fin.ext ?_ : _ = Cert.Spec.code wp o i)).trans (tbl_apply _)
  show min (broadcastInDim S4096x4096x1 ![0, 1] bcast_S4096x4096_S4096x4096x1_0_1 (wrapped wp) (takeIdx (ix2 o i))).toInt.toNat (16 - 1) = _
  rw [e, toInt_toNat_of_lt _ (codes_lt wp o i), codes_toNat]
  have := (Cert.Spec.code wp o i).isLt
  omega

/-- A block's scale is the specification's, for an exponent word in range. -/
theorem scale_apply (se : IVec S4096x128 32) (o : Fin 4096) (g : Fin 128)
    (h0 : 0 ≤ (se (ix2 o g)).toInt) (h1 : (se (ix2 o g)).toInt ≤ 255) :
    scale (F := Ideal) se (ix2 o g) = Cert.Spec.scl (se (ix2 o g)) := by
  show Ideal.exp (Ideal.ofBits .f32 0x3F317218#32 * ((((se (ix2 o g)) - 4#32).toInt : ℝ) : EReal)) = _
  rw [Cert.Spec.toInt_sub4 _ h0 h1]
  rfl

/-- A dequantized weight is the specification's. -/
theorem weights_apply (wp : IVec S4096x2048 32) (se : IVec S4096x128 32)
    (hr : ∀ j : S4096x128.Idx, 0 ≤ (se j).toInt ∧ (se j).toInt ≤ 255) (o i : Fin 4096) :
    weights (F := Ideal) wp se (ix2 o i) = Cert.Spec.wgt wp se o i := by
  unfold weights
  refine (shapeCast_apply _ _ _ (ix3 o (⟨i.val / 32, by omega⟩ : Fin 128) (⟨i.val % 32, by omega⟩ : Fin 32)) ?_).trans ?_
  · rw [Shape.rowMajor_val_three, Shape.rowMajor_val_two]
    show (o.val * 128 + i.val / 32) * 32 + i.val % 32 = o.val * 4096 + i.val
    omega
  rw [mulf_apply]
  unfold Cert.Spec.wgt
  congr 1
  · refine (shapeCast_apply _ _ _ (ix2 o i) ?_).trans (looked_apply wp o i)
    rw [Shape.rowMajor_val_three, Shape.rowMajor_val_two]
    show o.val * 4096 + i.val = (o.val * 128 + i.val / 32) * 32 + i.val % 32
    omega
  · refine (broadcastInDim_apply _ _ _ _ (ix3 o (⟨i.val / 32, by omega⟩ : Fin 128) (0 : Fin 1))
      (fun a => match a with | ⟨0, _⟩ => rfl | ⟨1, _⟩ => rfl | ⟨2, _⟩ => rfl)).trans ?_
    refine (broadcastInDim_apply _ _ _ _ (ix2 o (⟨i.val / 32, by omega⟩ : Fin 128))
      (fun a => match a with | ⟨0, _⟩ => rfl | ⟨1, _⟩ => rfl)).trans ?_
    exact scale_apply se o _ (hr _).1 (hr _).2

/-- The product at an index is the sum over the shared axis. -/
theorem dot_apply (x : FVec Ideal S8192x4096 .f32) (W : FVec Ideal S4096x4096 .f32) (p : Fin 8192) (q : Fin 4096) :
    Host.dotGeneral dot_S8192x4096_S4096x4096_S8192x4096_1_1_0_0_n_n none x W (ix2 p q)
      = ∑ i : Fin 4096, x (ix2 p i) * W (ix2 q i) := by
  show FloatOps.dotGeneral _ none _ x W (ix2 p q) = _
  rw [Ideal.dotGeneral_apply,
    ← Equiv.sum_comp (contrEquiv1 dot_S8192x4096_S4096x4096_S8192x4096_1_1_0_0_n_n 4096 rfl rfl).symm]
  refine Finset.sum_congr rfl fun i _ => ?_
  have c2 := contrEquiv1_symm_val dot_S8192x4096_S4096x4096_S8192x4096_1_1_0_0_n_n 4096 rfl rfl i
  have l2 : dot_S8192x4096_S4096x4096_S8192x4096_1_1_0_0_n_n.lhsIdx (ix2 p q) ((contrEquiv1 _ 4096 rfl rfl).symm i) = ix2 p i := by
    funext ax; apply Fin.ext
    match ax with
    | ⟨0, _⟩ => simp [DotDims.lhsIdx, dot_S8192x4096_S4096x4096_S8192x4096_1_1_0_0_n_n]; rfl
    | ⟨1, _⟩ => simp [DotDims.lhsIdx, dot_S8192x4096_S4096x4096_S8192x4096_1_1_0_0_n_n]; exact c2
  have r2 : dot_S8192x4096_S4096x4096_S8192x4096_1_1_0_0_n_n.rhsIdx (ix2 p q) ((contrEquiv1 _ 4096 rfl rfl).symm i) = ix2 q i := by
    funext ax; apply Fin.ext
    match ax with
    | ⟨0, _⟩ => simp [DotDims.rhsIdx, dot_S8192x4096_S4096x4096_S8192x4096_1_1_0_0_n_n]; rfl
    | ⟨1, _⟩ => simp [DotDims.rhsIdx, dot_S8192x4096_S4096x4096_S8192x4096_1_1_0_0_n_n]; exact c2
  rw [l2, r2]

/-- The composed term is the specification's result, for exponent words in the format's range. -/
theorem out_eq (x : FVec Ideal S8192x4096 .f32) (wp : IVec S4096x2048 32) (se : IVec S4096x128 32) (b : FVec Ideal S4096 .f32)
    (hr : ∀ j : S4096x128.Idx, 0 ≤ (se j).toInt ∧ (se j).toInt ≤ 255) :
    out (F := Ideal) x wp se b = Cert.Spec.G x wp se b := by
  funext j
  obtain ⟨p, q, rfl⟩ : ∃ (p : Fin 8192) (q : Fin 4096), j = ix2 p q := ⟨j 0, j 1, eq_ix2 j⟩
  rw [Cert.Spec.G_apply]
  unfold out
  rw [addf_apply, dot_apply]
  congr 1
  · exact Finset.sum_congr rfl fun i _ => by rw [weights_apply wp se hr q i]
  · refine (broadcastInDim_apply _ _ _ _ (ix2 (0 : Fin 1) q) (fun a => match a with | ⟨0, _⟩ => rfl | ⟨1, _⟩ => rfl)).trans ?_
    exact broadcastInDim_apply _ _ _ _ (ix1 q) (fun a => match a with | ⟨0, _⟩ => rfl)

/-! ## The exported run -/

/-- Every weakly fair execution of the reference ends with the result at the specification's function of the arguments
    and the arguments unchanged, for exponent words in the format's range. -/
theorem ref_run (m : (ℓ : Loc Cert.ReferenceIdeal.nD Cert.ReferenceIdeal.τ Cert.ReferenceIdeal.sig) → Buf (Elt Ideal) ℓ) (g : Dev Cert.ReferenceIdeal.nD → PrngReg)
    (hr : ∀ (c : Dev nD) (j : Cert.Spec.SE.Idx), 0 ≤ ((m ((c.tc : Thread nD τ).loc main_arg2) : IVec Cert.Spec.SE 32) j).toInt ∧ ((m ((c.tc : Thread nD τ).loc main_arg2) : IVec Cert.Spec.SE 32) j).toInt ≤ 255) :
    θ_run (defs (F := Ideal)) (onTc (τ := τ) (main (F := Ideal))) ⟨m, fun _ => 0, g⟩ (fun r => ∀ c : Dev nD,
      r.2.mem ((c.tc : Thread nD τ).loc main_v31) = Cert.Spec.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (out_eq _ _ _ _ (hr c)), (h c).2⟩) (run (F := Ideal) m g)

end Cert.ReferenceIdeal.Hand

end
-- ==== Proof.PreRange.lean ====
/-
  The precondition read back: the range of the block exponents.

  The printed precondition is a conjunction of three facts, each a reduction by "and" over a whole array: the
  activations are finite, the bias is finite, and every block exponent word `s` satisfies `0 ≤ s` and `s ≤ 255`, both
  compares signed. Only the last is read here. The conjunction being 1 makes its last conjunct 1; a reduction by
  "and" that is 1 met only 1s, so the elementwise "and" of the two compares is 1 at every index; each compare being 1
  is the signed order of its operands, and the right-hand operands are the scalars 0 and 255 broadcast to the
  array's shape, whose signed values are 0 and 255.
-/
import proofs.«410896_j20486994002773_1_alg».proof.Defs
import proofs.«410896_j20486994002773_1_alg».proof.Proof.Spec
import Idealize.ShloMosaic.Lib.ReduceAll
import Idealize.ShloMosaic.Lib.StableHlo.Predicate

noncomputable section

namespace Cert.PreHand

open Idealize.ShloMosaic Idealize.SL.Sem

/-- The scalar shape has one index. -/
instance : Subsingleton Cert.Pre_finite_inputs.S_.Idx := ⟨fun a b => funext fun d => d.elim0⟩

/-- The printed function being all ones bounds every entry of its third argument, read signed, to [0, 255]
    (at any float instance: the integer conjunct does not mention the floats). -/
theorem range_of_fn {F : FTy → Type} [FloatOps F] [hP : Cert.Pre_finite_inputs.Facts]
    (a0 : FVec F Cert.Pre_finite_inputs.S8192x4096 .f32) (a1 : IVec Cert.Pre_finite_inputs.S4096x2048 32)
    (a2 : IVec Cert.Pre_finite_inputs.S4096x128 32) (a3 : FVec F Cert.Pre_finite_inputs.S4096 .f32)
    (h : Cert.Pre_finite_inputs.fn (F := F) a0 a1 a2 a3 = (fun _ => 1#1)) (j : Cert.Pre_finite_inputs.S4096x128.Idx) :
    0 ≤ (a2 j).toInt ∧ (a2 j).toInt ≤ 255 := by
  have e := congrFun h ValueIdx.ix0
  dsimp only [Cert.Pre_finite_inputs.fn] at e
  -- the last conjunct of the outer conjunction: the reduction over the exponent array
  have e14 := (IntOp.andi_eq_one.1 e).2
  -- a reduction by "and" that is 1 met a 1 at index j
  have ej := Host.reduce_andi_all _ _ _ _ _ e14 j
  -- the two compares at j, each the signed order of its operands
  obtain ⟨h10, h12⟩ := IntOp.andi_eq_one.1 ej
  have g0 := IntOp.cmpi_sge.1 h10
  have g1 := IntOp.cmpi_sle.1 h12
  -- the right-hand operands are broadcast scalars: the constants 0 and 255
  rw [StableHlo.Predicate.bcast_scalar _ Cert.Pre_finite_inputs.Facts.h_S_] at g0 g1
  change (0#32 : BitVec 32).toInt ≤ (a2 j).toInt at g0
  change (a2 j).toInt ≤ (255#32 : BitVec 32).toInt at g1
  rw [show (0#32 : BitVec 32).toInt = 0 from by decide] at g0
  rw [show (255#32 : BitVec 32).toInt = 255 from by decide] at g1
  exact ⟨g0, g1⟩

/-- Under the precondition every block exponent of the launch memory, read signed, lies in [0, 255]. -/
theorem range_of_pre [hP : Cert.Pre_finite_inputs.Facts]
    (m : (ℓ : Loc Cert.KernelIdeal.nD Cert.KernelIdeal.τ Cert.KernelIdeal.sig) → Buf (Elt Ideal) ℓ) (h : Cert.Pre_KernelIdeal m)
    (c : Dev Cert.KernelIdeal.nD) (j : Cert.Spec.SE.Idx) :
    0 ≤ ((m ((c.tc : Thread Cert.KernelIdeal.nD Cert.KernelIdeal.τ).loc Cert.KernelIdeal.main_arg2) : IVec Cert.Spec.SE 32) j).toInt
      ∧ ((m ((c.tc : Thread Cert.KernelIdeal.nD Cert.KernelIdeal.τ).loc Cert.KernelIdeal.main_arg2) : IVec Cert.Spec.SE 32) j).toInt ≤ 255 :=
  range_of_fn (F := Ideal) _ _ _ _ (h c) j

end Cert.PreHand

end
-- ==== Proof.lean ====
/-
  The certificate's claim. Both programs compute `x · Wᵀ + bias` with `W` the MXFP4 weights dequantized: a 4-bit E2M1
  code per input position (two per packed word), times `exp (ln2 · (s - 4))` for the position's block of 32 with
  exponent word `s` (`ln2` the same single-precision literal on both sides, never evaluated). The kernel decodes a code
  arithmetically (sign, `(1 + m/2) · 2^(e-1)`, or `m/2` at exponent 0) in one region, interleaves the two planes on the
  host, and multiplies tile by tile in a second region that accumulates the two halves of the contraction in a scratch
  buffer; the reference looks the code up in a table and multiplies once. The two agree entry by entry on the extended
  reals — the table has the decoded values, the two half sums join, and nothing needs finiteness — provided the
  reference's 32-bit `s - 4` does not wrap, which the precondition's range `0 ≤ s ≤ 255` on the exponent words gives.
  The frames are the same runs with the result dropped; the kernel as printed (word level) has the same text as its
  idealization and its frame is the same run read at the word-level instance; the idealization rewrote nothing.
-/
import proofs.«410896_j20486994002773_1_alg».proof.Defs
import proofs.«410896_j20486994002773_1_alg».proof.Proof.Gen.Kernel
import proofs.«410896_j20486994002773_1_alg».proof.Proof.Gen.KernelIdeal
import proofs.«410896_j20486994002773_1_alg».proof.Proof.Gen.ReferenceIdeal
import proofs.«410896_j20486994002773_1_alg».proof.Proof.Gen.Pre_finite_inputs
import proofs.«410896_j20486994002773_1_alg».proof.Proof.KRun
import proofs.«410896_j20486994002773_1_alg».proof.Proof.KernelG
import proofs.«410896_j20486994002773_1_alg».proof.Proof.RefVal
import proofs.«410896_j20486994002773_1_alg».proof.Proof.PreRange
import Idealize.ShloMosaic.Adequacy
import Idealize.ShloMosaic.Init

noncomputable section

namespace Cert.Proof

open Idealize.ShloMosaic Idealize.SL.Sem

/-- The kernel as printed runs and leaves its arguments: the whole-program run at the word-level instance. -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun _ h c => (h c).2) (Cert.Kernel.Hand.run_main (F := Bits) m ρ)

/-- The idealized kernel runs and leaves its arguments. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2) (Cert.KernelIdeal.Hand.run_main (F := Ideal) m ρ)

/-- The reference runs and leaves its arguments. -/
theorem frame_ri : Cert.frame_ReferenceIdeal (hReferenceIdeal := Cert.ReferenceIdeal.Gen.facts) (hPre_finite_inputs := Cert.Pre_finite_inputs.Gen.facts) :=
  fun m ρ _ => Cert.ReferenceIdeal.Hand.ref_frame m ρ

/-- The idealization rewrote no operation. -/
theorem preserves : Cert.preserves_Kernel_KernelIdeal := trivial

/-- From memories agreeing on the arguments both programs end at `G` of them: the kernel's run for any input, the
    reference's for exponent words in range — which the precondition states of the kernel's memory and the agreement
    carries to the reference's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Hand.kernel_run m ρ, ?_⟩
  refine (θ_run (Cert.ReferenceIdeal.defs (F := Ideal)) _ _).mono (fun _ h c => ⟨(h c).1.trans ?_, (h c).2⟩)
    (Cert.ReferenceIdeal.Hand.ref_run m' ρ' (fun c j => by rw [(hagree c).2.2.1]; exact Cert.PreHand.range_of_pre m hpre c j))
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
